-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048 : Shape := ⟨2, ![8, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S8x2048x128 .f32) (main_arg1 : FVec F S8x2048x128 .f32) (main_arg2 : FVec F S8x2048x128 .f32) (main_arg3 : FVec F S8x2048 .f32) (main_arg4 : FVec F S128x128 .f32) (main_arg5 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_v13 main_v16
-- ==== Kernel.lean ====
abbrev S8x2048x128 : Shape := ⟨3, ![8, 2048, 128]⟩
abbrev S8x2048 : Shape := ⟨2, ![8, 2048]⟩
abbrev S128x128 : Shape := ⟨2, ![128, 128]⟩
abbrev S8x1x2048 : Shape := ⟨3, ![8, 1, 2048]⟩
abbrev S1x2048x128 : Shape := ⟨3, ![1, 2048, 128]⟩
abbrev S1x512x128 : Shape := ⟨3, ![1, 512, 128]⟩
abbrev S1x1x512 : Shape := ⟨3, ![1, 1, 512]⟩
abbrev S2048x128 : Shape := ⟨2, ![2048, 128]⟩
abbrev S2048x1 : Shape := ⟨2, ![2048, 1]⟩
abbrev S512x128 : Shape := ⟨2, ![512, 128]⟩
abbrev S2048x512 : Shape := ⟨2, ![2048, 512]⟩
abbrev S1x512 : Shape := ⟨2, ![1, 512]⟩
abbrev S2048 : Shape := ⟨1, ![2048]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048, .f32⟩
  | .hbm, ⟨4, _⟩ => ⟨S128x128, .f32⟩
  | .hbm, ⟨5, _⟩ => ⟨S128x128, .f32⟩
  | .hbm, ⟨6, _⟩ => ⟨S8x1x2048, .f32⟩
  | .hbm, ⟨7, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S128x128, .f32⟩
  | .local _ .vmem, ⟨7, _⟩ => ⟨S128x128, .f32⟩
  | .local _ .vmem, ⟨8, _⟩ => ⟨S1x1x512, .f32⟩
  | .local _ .vmem, ⟨9, _⟩ => ⟨S1x1x512, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .bf16⟩
  | .local _ .vmem, ⟨13, _⟩ => ⟨S2048x1, .f32⟩
  | .local _ .vmem, ⟨14, _⟩ => ⟨S2048x1, .f32⟩
  | .local _ .vmem, ⟨15, _⟩ => ⟨S2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_33 : BitVec 32 := 0#32
  let v57 : BitVec 1 := Scalar.cmpi .ne v56 c0_i32_33
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x2048_S8x1x2048 : S8x2048.ShapeCasts S8x1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x128 : S2048x1.Broadcasts S2048x128
  shapeCasts_S2048x128_S1x2048x128 : S2048x128.ShapeCasts S1x2048x128
  dot_S2048x128_S128x128_S2048x128_1_0_0_1_n_n_wf : DotDims.WF S2048x128 S128x128 S2048x128 [1] [0] [0] [1] [] []
  dot_S512x128_S128x128_S512x128_1_0_0_1_n_n_wf : DotDims.WF S512x128 S128x128 S512x128 [1] [0] [0] [1] [] []
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S8x2048x128.size a
  hwx0_1 : ∀ i : grid0.Coords, EltTy.bits .f32 = 32 ∨ (Rect.block (s := S8x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S8x2048x128.size a
  hwx0_2 : ∀ i : grid0.Coords, EltTy.bits .f32 = 32 ∨ (Rect.block (s := S8x2048x128) S1x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S8x1x2048.size a
  hwx0_5 : ∀ i : grid0.Coords, EltTy.bits .f32 = 32 ∨ (Rect.block (s := S8x1x2048) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S8x2048x128.size a
  hwx0_6 : ∀ i : grid0.Coords, EltTy.bits .f32 = 32 ∨ (Rect.block (s := S8x2048x128) S1x2048x128.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2048x128 : Shape := ⟨3, ![8, 2048, 128]⟩
abbrev S8x2048 : Shape := ⟨2, ![8, 2048]⟩
abbrev S128x128 : Shape := ⟨2, ![128, 128]⟩
abbrev S8x2048x2048 : Shape := ⟨3, ![8, 2048, 2048]⟩
abbrev S8x1x2048 : Shape := ⟨3, ![8, 1, 2048]⟩
abbrev S_ : Shape := ⟨0, ![]⟩
abbrev S8x2048x1 : Shape := ⟨3, ![8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048, .f32⟩
  | .hbm, ⟨4, _⟩ => ⟨S128x128, .f32⟩
  | .hbm, ⟨5, _⟩ => ⟨S128x128, .f32⟩
  | .hbm, ⟨6, _⟩ => ⟨S8x2048x128, .f32⟩
  | .hbm, ⟨7, _⟩ => ⟨S8x2048x128, .f32⟩
  | .hbm, ⟨8, _⟩ => ⟨S8x2048x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x1x2048, .f32⟩
  | .hbm, ⟨14, _⟩ => ⟨S8x1x2048, .f32⟩
  | .hbm, ⟨15, _⟩ => ⟨S_, .f32⟩
  | .hbm, ⟨16, _⟩ => ⟨S8x1x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S8x1x2048 : S_.BroadcastsInDim S8x1x2048 (![] : Fin 0 → Fin S8x1x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S128x128_S8x2048x128_2_0_01_1_n_n_wf : DotDims.WF S8x2048x128 S128x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KernelPieces.lean ====
/-
  What each control case of the kernel body leaves in the scratch buffers it carries from one grid point to the
  next, and in the output block, as pure terms of the blocks it loaded and of what the previous point left.

  The body keeps four scratch buffers per batch: the projected queries `q` (written once, at the first key tile),
  the running row maximum `m`, the running normaliser `l` and the running weighted sum `acc`. At the first key
  tile of a batch (case A) it resets them — `q` to the projection of the query block, `m` to -∞, `l` and `acc`
  to zero — and then performs the same update as at every other tile (cases B and C), reading back what it has
  just stored; at the last key tile (case C) it also stores `acc / l` into the output block. Each lemma below
  says that the frame's own name for a buffer's final contents is that term.
-/
import proofs.«407200_j45148696215770_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-- First key tile: the projected queries are the projection of the query block by `Wq`. -/
theorem soutA0 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay5 x0 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- First key tile: the running maximum, updated from -∞. -/
theorem soutA1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k0_pay3 (k0_pay10 x1 x4 (k0_pay5 x0 x3) x5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- First key tile: the running normaliser, updated from zero. -/
theorem soutA2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = k0_pay1 (k0_pay12 x1 x4 (k0_pay5 x0 x3) x5 k0_pay6) (k0_pay13 x1 x4 (k0_pay5 x0 x3) x5 k0_pay6 k0_pay6 k0_pay7) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- First key tile: the running weighted sum, updated from zero. -/
theorem soutA3 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = k0_pay2 (k0_pay11 x1 x4 (k0_pay5 x0 x3) x5 k0_pay6 k0_pay6) (k0_pay12 x1 x4 (k0_pay5 x0 x3) x5 k0_pay6) x2 k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- A middle key tile: the running maximum over what the previous point left. -/
theorem soutB1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (k0_pay10 x1 x4 xs0 x5 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- A middle key tile: the running normaliser. -/
theorem soutB2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay12 x1 x4 xs0 x5 xs1) (k0_pay13 x1 x4 xs0 x5 xs1 xs1 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- A middle key tile: the running weighted sum. -/
theorem soutB3 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : ¬cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (k0_pay11 x1 x4 xs0 x5 xs1 xs1) (k0_pay12 x1 x4 xs0 x5 xs1) x2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- The last key tile: the running maximum. -/
theorem soutC1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (k0_pay10 x1 x4 xs0 x5 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- The last key tile: the running normaliser. -/
theorem soutC2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay12 x1 x4 xs0 x5 xs1) (k0_pay13 x1 x4 xs0 x5 xs1 xs1 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- The last key tile: the running weighted sum. -/
theorem soutC3 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (k0_pay11 x1 x4 xs0 x5 xs1 xs1) (k0_pay12 x1 x4 xs0 x5 xs1) x2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

/-- The last key tile: the output block is the final weighted sum divided by the final normaliser. -/
theorem outC6 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x512 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (hc0 : ¬cond0_0 i) (hc1 : cond0_1 i)
    (x0 : Vec F S1x2048x128 .f32) (x1 : Vec F S1x512x128 .f32) (x2 : Vec F S1x512x128 .f32) (x3 : Vec F S128x128 .f32) (x4 : Vec F S128x128 .f32) (x5 : Vec F S1x1x512 .f32) (xs0 : Vec F S2048x128 .bf16) (xs1 : Vec F S2048x1 .f32) (xs2 : Vec F S2048x1 .f32) (xs3 : Vec F S2048x128 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay4 (k0_pay2 (k0_pay11 x1 x4 xs0 x5 xs1 xs1) (k0_pay12 x1 x4 xs0 x5 xs1) x2 xs3) (k0_pay1 (k0_pay12 x1 x4 xs0 x5 xs1) (k0_pay13 x1 x4 xs0 x5 xs1 xs1 xs2)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_cons_unit_zero hz3]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x2048x128) hz3, View.ld_unit_zero (S := S1x512x128) hz3, View.ld_unit_zero (S := S1x1x512) hz3, View.ld_unit_zero (S := S128x128) hz2, View.ld_unit_zero (S := S2048x128) hz2, View.ld_unit_zero (S := S2048x1) hz2,
    View.readCov_unit_zero (S := S2048x128) _ hz2, View.readCov_unit_zero (S := S2048x1) _ hz2]

end Cert.KernelIdeal.Pieces

end
-- ==== Proof.Transitions.lean ====
/-
  The kernel's carried state, point by point. After grid point `t` the four scratch buffers hold (the projected
  queries, the running maximum, the running normaliser, the running weighted sum). At the first key tile of a batch
  they are the update of the reset state (-∞, 0, 0) by that tile, with the projected queries computed there; at every
  later tile they are the update, by that tile, of what the point before left, the projected queries unchanged; and at
  the last key tile the output block is the weighted sum divided by the normaliser. `newM`, `newL`, `newAcc` name
  the update's three results as terms of the tile's key, value, `Wk` and mask blocks, the projected queries and the
  old state.
-/
import proofs.«407200_j45148696215770_3_alg».proof.Proof.KernelPieces

set_option maxRecDepth 16384

noncomputable section

namespace Cert.KernelIdeal.Trans

open Cert.KernelIdeal Cert.KernelIdeal.Gen Cert.KernelIdeal.Pieces Idealize.ShloMosaic Idealize.ShloMosaic.TcCoe Idealize.SL.Sem

variable {F : FTy → Type} [FloatOps F]

/-- The new running maximum: the larger of the old one and the tile's row maxima of the masked scores. -/
abbrev newM (x1 : Vec F S1x512x128 .f32) (x4 : Vec F S128x128 .f32) (q : Vec F S2048x128 .bf16) (x5 : Vec F S1x1x512 .f32)
    (m0 : Vec F S2048x1 .f32) : Vec F S2048x1 .f32 :=
  k0_pay3 (k0_pay10 x1 x4 q x5 m0)

/-- The new running normaliser: the old one rescaled to the new maximum, plus the tile's row sums of weights. -/
abbrev newL (x1 : Vec F S1x512x128 .f32) (x4 : Vec F S128x128 .f32) (q : Vec F S2048x128 .bf16) (x5 : Vec F S1x1x512 .f32)
    (m0 l0 : Vec F S2048x1 .f32) : Vec F S2048x1 .f32 :=
  k0_pay1 (k0_pay12 x1 x4 q x5 m0) (k0_pay13 x1 x4 q x5 m0 m0 l0)

/-- The new running weighted sum: the old one rescaled, plus the tile's weights times its value block. -/
abbrev newAcc (x1 x2 : Vec F S1x512x128 .f32) (x4 : Vec F S128x128 .f32) (q : Vec F S2048x128 .bf16) (x5 : Vec F S1x1x512 .f32)
    (m0 : Vec F S2048x1 .f32) (a0 : Vec F S2048x128 .f32) : Vec F S2048x128 .f32 :=
  k0_pay2 (k0_pay11 x1 x4 q x5 m0 m0) (k0_pay12 x1 x4 q x5 m0) x2 a0

variable (m : (ℓ : Loc nD τ sig) → Buf (Elt F) ℓ)

/-! ## The first key tile of a batch -/

theorem q_first (c : Dev nD) (t : Fin cfg0.N) (h0 : t.val % 4 = 0) :
    (outsAt0 m c t.val t.isLt).2.1 = k0_pay5 (iblk m c 0 t) (iblk m c 3 t) := by
  have h1 : ¬t.val % 4 = 3 := by omega
  rw [outsAt0_A m c t h0 h1]; dsimp only
  exact soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem m_first (c : Dev nD) (t : Fin cfg0.N) (h0 : t.val % 4 = 0) :
    (outsAt0 m c t.val t.isLt).2.2.1 = newM (iblk m c 1 t) (iblk m c 4 t) (k0_pay5 (iblk m c 0 t) (iblk m c 3 t)) (iblk m c 5 t) k0_pay6 := by
  have h1 : ¬t.val % 4 = 3 := by omega
  rw [outsAt0_A m c t h0 h1]; dsimp only
  exact soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem l_first (c : Dev nD) (t : Fin cfg0.N) (h0 : t.val % 4 = 0) :
    (outsAt0 m c t.val t.isLt).2.2.2.1 = newL (iblk m c 1 t) (iblk m c 4 t) (k0_pay5 (iblk m c 0 t) (iblk m c 3 t)) (iblk m c 5 t) k0_pay6 k0_pay7 := by
  have h1 : ¬t.val % 4 = 3 := by omega
  rw [outsAt0_A m c t h0 h1]; dsimp only
  exact soutA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem acc_first (c : Dev nD) (t : Fin cfg0.N) (h0 : t.val % 4 = 0) :
    (outsAt0 m c t.val t.isLt).2.2.2.2 = newAcc (iblk m c 1 t) (iblk m c 2 t) (iblk m c 4 t) (k0_pay5 (iblk m c 0 t) (iblk m c 3 t)) (iblk m c 5 t) k0_pay6 k0_pay8 := by
  have h1 : ¬t.val % 4 = 3 := by omega
  rw [outsAt0_A m c t h0 h1]; dsimp only
  exact soutA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-! ## A later key tile -/

theorem q_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

theorem m_later (c : Dev nD) (t : Fin cfg0.N) (h0 : ¬t.val % 4 = 0) :
    (outsAt0 m c t.val t.isLt).2.2.1 = newM (iblk m c 1 t) (iblk m c 4 t) (outsAt0 m c (t.val - 1) (Nat.lt_of_le_of_lt (Nat.sub_le _ _) t.isLt)).2.1 (iblk m c 5 t) (outsAt0 m c (t.val - 1) (Nat.lt_of_le_of_lt (Nat.sub_le _ _) t.isLt)).2.2.1 := by
  by_cases h1 : t.val % 4 = 3
  · rw [outsAt0_C m c t h0 h1]; dsimp only
    exact soutC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]; dsimp only
    exact soutB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem l_later (c : Dev nD) (t : Fin cfg0.N) (h0 : ¬t.val % 4 = 0) :
    (outsAt0 m c t.val t.isLt).2.2.2.1 = newL (iblk m c 1 t) (iblk m c 4 t) (outsAt0 m c (t.val - 1) (Nat.lt_of_le_of_lt (Nat.sub_le _ _) t.isLt)).2.1 (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  by_cases h1 : t.val % 4 = 3
  · rw [outsAt0_C m c t h0 h1]; dsimp only
    exact soutC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]; dsimp only
    exact soutB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem acc_later (c : Dev nD) (t : Fin cfg0.N) (h0 : ¬t.val % 4 = 0) :
    (outsAt0 m c t.val t.isLt).2.2.2.2 = newAcc (iblk m c 1 t) (iblk m c 2 t) (iblk m c 4 t) (outsAt0 m c (t.val - 1) (Nat.lt_of_le_of_lt (Nat.sub_le _ _) t.isLt)).2.1 (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.2 := by
  by_cases h1 : t.val % 4 = 3
  · rw [outsAt0_C m c t h0 h1]; dsimp only
    exact soutC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]; dsimp only
    exact soutB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The last key tile: the output block -/

theorem out_last (c : Dev nD) (t : Fin cfg0.N) (h1 : t.val % 4 = 3) :
    (outsAt0 m c t.val t.isLt).1 = k0_pay4 (outsAt0 m c t.val t.isLt).2.2.2.2 (outsAt0 m c t.val t.isLt).2.2.2.1 := by
  have h0 : ¬t.val % 4 = 0 := by omega
  rw [acc_later m c t h0, l_later m c t h0, outsAt0_C m c t h0 h1]; dsimp only
  exact outC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Trans

end
-- ==== Proof.PayloadsAt.lean ====
/-
  The kernel body's payloads read at an index, at the ideal values (extended reals, exact operations).
  Each payload is a short chain of vector operations; read at one index it is a closed expression in the
  elements of the vectors it is computed from: a contraction is the sum over the shared axis of the products,
  a lane reduction is the sum or the maximum along the row, a column `[a, 1]` repeated along the lanes reads
  its row, and the changes of format are the identity.
-/
import proofs.«407200_j45148696215770_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two column forms of the layout operations

A vector of row statistics `[a]` is viewed as a column `[a, 1]`, and a column `[a, 1]` is repeated along
the lanes to `[a, b]`. -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four contractions, each read at an index -/

/-! ### Rows `[2048, 128]` times a matrix `[128, 128]` -/

theorem lhs_rowsA_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_rowsA_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_rowsA_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_rowsA_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Into the zero accumulator, the product of `[2048, 128]` rows with a `[128, 128]` matrix at `(i, h)` is the sum over
    the shared axis `d` of row `i` at `d` times the matrix at `(d, h)`. -/
theorem matmul_rowsA_apply {φ₁ φ₂ : FTy} (A : FVec Ideal S2048x128 φ₁) (B : FVec Ideal S128x128 φ₂) (i : Fin 2048) (h : Fin 128) :
    matmul dot_S2048x128_S128x128_S2048x128_1_0_0_1_n_n none A B (constant (F := Ideal) S2048x128 .f32 0x00000000#32) (ix2 i h)
      = ∑ d : Fin 128, A (ix2 i d) * B (ix2 d h) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 i h) ((ValueIdx.contrEquiv1 dot_S2048x128_S128x128_S2048x128_1_0_0_1_n_n 128 rfl rfl).symm k) = ix2 i k := funext fun a => Fin.ext (by
    match a with
    | ⟨0, _⟩ => exact lhs_rowsA_0 _ _
    | ⟨1, _⟩ => exact (lhs_rowsA_1 _ _).trans hk)
  have er : dot_S2048x128_S128x128_S2048x128_1_0_0_1_n_n.rhsIdx (ix2 i h) ((ValueIdx.contrEquiv1 dot_S2048x128_S128x128_S2048x128_1_0_0_1_n_n 128 rfl rfl).symm k) = ix2 k h := funext fun a => Fin.ext (by
    match a with
    | ⟨0, _⟩ => exact (rhs_rowsA_0 _ _).trans hk
    | ⟨1, _⟩ => exact rhs_rowsA_1 _ _)
  rw [el, er]

/-! ### Rows `[512, 128]` times a matrix `[128, 128]` -/

theorem lhs_rowsB_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_rowsB_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_rowsB_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_rowsB_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Into the zero accumulator, the product of `[512, 128]` rows with a `[128, 128]` matrix at `(k, h)` is the sum over
    the shared axis `d` of row `k` at `d` times the matrix at `(d, h)`. -/
theorem matmul_rowsB_apply {φ₁ φ₂ : FTy} (A : FVec Ideal S512x128 φ₁) (B : FVec Ideal S128x128 φ₂) (k : Fin 512) (h : Fin 128) :
    matmul dot_S512x128_S128x128_S512x128_1_0_0_1_n_n none A B (constant (F := Ideal) S512x128 .f32 0x00000000#32) (ix2 k h)
      = ∑ d : Fin 128, A (ix2 k d) * B (ix2 d h) := by
  simp only [matmul]
  rw [Ideal.matmul_constant_zero_apply, ← Equiv.sum_comp (ValueIdx.contrEquiv1 dot_S512x128_S128x128_S512x128_1_0_0_1_n_n 128 rfl rfl).symm]
  refine Finset.sum_congr rfl fun c _ => ?_
  have hc := ValueIdx.contrEquiv1_symm_val dot_S512x128_S128x128_S512x128_1_0_0_1_n_n 128 rfl rfl c
  have el : dot_S512x128_S128x128_S512x128_1_0_0_1_n_n.lhsIdx (ix2 k h) ((ValueIdx.contrEquiv1 dot_S512x128_S128x128_S512x128_1_0_0_1_n_n 128 rfl rfl).symm c) = ix2 k c := funext fun a => Fin.ext (by
    match a with
    | ⟨0, _⟩ => exact lhs_rowsB_0 _ _
    | ⟨1, _⟩ => exact (lhs_rowsB_1 _ _).trans hc)
  have er : dot_S512x128_S128x128_S512x128_1_0_0_1_n_n.rhsIdx (ix2 k h) ((ValueIdx.contrEquiv1 dot_S512x128_S128x128_S512x128_1_0_0_1_n_n 128 rfl rfl).symm c) = ix2 c h := funext fun a => Fin.ext (by
    match a with
    | ⟨0, _⟩ => exact (rhs_rowsB_0 _ _).trans hc
    | ⟨1, _⟩ => exact rhs_rowsB_1 _ _)
  rw [el, er]

/-! ### Rows `[2048, 128]` against rows `[512, 128]`: both contracted along their second axis -/

theorem lhs_scores_0 (i : S2048x512.Idx) (q : dot_S2048x128_S512x128_S2048x512_1_1_0_0_n_n.contr.Idx) :
    (dot_S2048x128_S512x128_S2048x512_1_1_0_0_n_n.lhsIdx i q 0).val = (i 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem lhs_scores_1 (i : S2048x512.Idx) (q : dot_S2048x128_S512x128_S2048x512_1_1_0_0_n_n.contr.Idx) :
    (dot_S2048x128_S512x128_S2048x512_1_1_0_0_n_n.lhsIdx i q 1).val = (q ⟨0, by decide⟩).val :=
  dot_S2048x128_S512x128_S2048x512_1_1_0_0_n_n.lhsIdx_val_of_single rfl i q
theorem rhs_scores_0 (i : S2048x512.Idx) (q : dot_S2048x128_S512x128_S2048x512_1_1_0_0_n_n.contr.Idx) :
    (dot_S2048x128_S512x128_S2048x512_1_1_0_0_n_n.rhsIdx i q 0).val = (i 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem rhs_scores_1 (i : S2048x512.Idx) (q : dot_S2048x128_S512x128_S2048x512_1_1_0_0_n_n.contr.Idx) :
    (dot_S2048x128_S512x128_S2048x512_1_1_0_0_n_n.rhsIdx i q 1).val = (q ⟨0, by decide⟩).val :=
  dot_S2048x128_S512x128_S2048x512_1_1_0_0_n_n.rhsIdx_val_of_single rfl i q

/-- Into the zero accumulator, `[2048, 128]` rows against `[512, 128]` rows at `(i, k)`: the sum over the shared axis
    `h` of row `i` of the first at `h` times row `k` of the second at `h`. -/
theorem matmul_scores_apply {φ₁ φ₂ : FTy} (A : FVec Ideal S2048x128 φ₁) (B : FVec Ideal S512x128 φ₂) (i : Fin 2048) (k : Fin 512) :
    matmul dot_S2048x128_S512x128_S2048x512_1_1_0_0_n_n none A B (constant (F := Ideal) S2048x512 .f32 0x00000000#32) (ix2 i k)
      = ∑ h : Fin 128, A (ix2 i h) * B (ix2 k h) := by
  simp only [matmul]
  rw [Ideal.matmul_constant_zero_apply, ← Equiv.sum_comp (ValueIdx.contrEquiv1 dot_S2048x128_S512x128_S2048x512_1_1_0_0_n_n 128 rfl rfl).symm]
  refine Finset.sum_congr rfl fun c _ => ?_
  have hc := ValueIdx.contrEquiv1_symm_val dot_S2048x128_S512x128_S2048x512_1_1_0_0_n_n 128 rfl rfl c
  have el : dot_S2048x128_S512x128_S2048x512_1_1_0_0_n_n.lhsIdx (ix2 i k) ((ValueIdx.contrEquiv1 dot_S2048x128_S512x128_S2048x512_1_1_0_0_n_n 128 rfl rfl).symm c) = ix2 i c := funext fun a => Fin.ext (by
    match a with
    | ⟨0, _⟩ => exact lhs_scores_0 _ _
    | ⟨1, _⟩ => exact (lhs_scores_1 _ _).trans hc)
  have er : dot_S2048x128_S512x128_S2048x512_1_1_0_0_n_n.rhsIdx (ix2 i k) ((ValueIdx.contrEquiv1 dot_S2048x128_S512x128_S2048x512_1_1_0_0_n_n 128 rfl rfl).symm c) = ix2 k c := funext fun a => Fin.ext (by
    match a with
    | ⟨0, _⟩ => exact rhs_scores_0 _ _
    | ⟨1, _⟩ => exact (rhs_scores_1 _ _).trans hc)
  rw [el, er]

/-! ### Weights `[2048, 512]` times values `[512, 128]` -/

theorem lhs_mix_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_mix_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_mix_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_mix_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- Into the zero accumulator, `[2048, 512]` weights times `[512, 128]` values at `(i, d)`: the sum over the shared
    axis `k` of the weight at `(i, k)` times the value at `(k, d)`. -/
theorem matmul_mix_apply {φ₁ φ₂ : FTy} (A : FVec Ideal S2048x512 φ₁) (B : FVec Ideal S512x128 φ₂) (i : Fin 2048) (d : Fin 128) :
    matmul dot_S2048x512_S512x128_S2048x128_1_0_0_1_n_n none A B (constant (F := Ideal) S2048x128 .f32 0x00000000#32) (ix2 i d)
      = ∑ k : Fin 512, A (ix2 i k) * B (ix2 k d) := by
  simp only [matmul]
  rw [Ideal.matmul_constant_zero_apply, ← Equiv.sum_comp (ValueIdx.contrEquiv1 dot_S2048x512_S512x128_S2048x128_1_0_0_1_n_n 512 rfl rfl).symm]
  refine Finset.sum_congr rfl fun c _ => ?_
  have hc := ValueIdx.contrEquiv1_symm_val dot_S2048x512_S512x128_S2048x128_1_0_0_1_n_n 512 rfl rfl c
  have el : dot_S2048x512_S512x128_S2048x128_1_0_0_1_n_n.lhsIdx (ix2 i d) ((ValueIdx.contrEquiv1 dot_S2048x512_S512x128_S2048x128_1_0_0_1_n_n 512 rfl rfl).symm c) = ix2 i c := funext fun a => Fin.ext (by
    match a with
    | ⟨0, _⟩ => exact lhs_mix_0 _ _
    | ⟨1, _⟩ => exact (lhs_mix_1 _ _).trans hc)
  have er : dot_S2048x512_S512x128_S2048x128_1_0_0_1_n_n.rhsIdx (ix2 i d) ((ValueIdx.contrEquiv1 dot_S2048x512_S512x128_S2048x128_1_0_0_1_n_n 512 rfl rfl).symm c) = ix2 c d := funext fun a => Fin.ext (by
    match a with
    | ⟨0, _⟩ => exact (rhs_mix_0 _ _).trans hc
    | ⟨1, _⟩ => exact rhs_mix_1 _ _)
  rw [el, er]

/-! ## The payloads at an index -/

/-- The projected queries: row `i` of the query block against column `h` of the projection. -/
theorem pay5_apply (x0 : FVec Ideal S1x2048x128 .f32) (x3 : FVec Ideal S128x128 .f32) (i : Fin 2048) (h : Fin 128) :
    k0_pay5 (F := Ideal) x0 x3 (ix2 i h) = ∑ d : Fin 128, x0 (ix3 (0 : Fin 1) i d) * x3 (ix2 d h) := by
  unfold k0_pay5
  refine (congrFun (shapeCast_self _ _) _).trans ?_
  refine (matmul_rowsA_apply _ _ i h).trans ?_
  refine Finset.sum_congr rfl fun d _ => ?_
  exact congrArg (· * x3 (ix2 d h)) (shapeCast_1ab_ab_apply x0 _ i d)

/-- The masked scores: the mask times the score of query row `i` against projected key row `k`, plus the mask's
    complement times the large negative constant. -/
theorem pay9_apply (x1 : FVec Ideal S1x512x128 .f32) (x4 : FVec Ideal S128x128 .f32) (q : FVec Ideal S2048x128 .bf16)
    (x5 : FVec Ideal S1x1x512 .f32) (i : Fin 2048) (k : Fin 512) :
    k0_pay9 (F := Ideal) x1 x4 q x5 (ix2 i k)
      = x5 (ix3 (0 : Fin 1) (0 : Fin 1) k) * (∑ h : Fin 128, q (ix2 i h) * (∑ d : Fin 128, x1 (ix3 (0 : Fin 1) k d) * x4 (ix2 d h)))
        + (Ideal.ofBits .f32 0x3F800000#32 - x5 (ix3 (0 : Fin 1) (0 : Fin 1) k)) * Ideal.ofBits .f32 0xF149F2CA#32 := by
  unfold k0_pay9
  refine (addf_apply _ _ _).trans ?_
  refine congrArg₂ (· + ·) ((mulf_apply _ _ _).trans (congrArg₂ (· * ·) ?_ ?_)) ?_
  · exact (broadcastTo_1b_ab_apply _ _ i k).trans (shapeCast_1ab_ab_apply x5 _ (0 : Fin 1) k)
  · refine (matmul_scores_apply _ _ i k).trans ?_
    refine Finset.sum_congr rfl fun h _ => ?_
    refine congrArg (q (ix2 i h) * ·) ?_
    refine (matmul_rowsB_apply _ _ k h).trans ?_
    refine Finset.sum_congr rfl fun d _ => ?_
    exact congrArg (· * x4 (ix2 d h)) (shapeCast_1ab_ab_apply x1 _ k d)
  · refine (broadcastTo_1b_ab_apply _ _ i k).trans ?_
    exact congrArg (fun t => (Ideal.ofBits .f32 0x3F800000#32 - t) * Ideal.ofBits .f32 0xF149F2CA#32)
      (shapeCast_1ab_ab_apply x5 _ (0 : Fin 1) k)

/-- The running maximum: the old one against the largest masked score of row `i` in this tile. -/
theorem pay10_apply (x1 : FVec Ideal S1x512x128 .f32) (x4 : FVec Ideal S128x128 .f32) (q : FVec Ideal S2048x128 .bf16)
    (x5 : FVec Ideal S1x1x512 .f32) (v24 : FVec Ideal S2048x1 .f32) (i : Fin 2048) :
    k0_pay10 (F := Ideal) x1 x4 q x5 v24 (ix2 i (0 : Fin 1))
      = max (v24 (ix2 i (0 : Fin 1))) ((Finset.univ : Finset (Fin 512)).fold max (Ideal.ofBits .f32 0xFF800000#32)
          (fun k => k0_pay9 (F := Ideal) x1 x4 q x5 (ix2 i k))) := by
  unfold k0_pay10
  refine (maximumf_apply _ _ _).trans ?_
  refine congrArg (max (v24 (ix2 i (0 : Fin 1)))) ?_
  refine (shapeCast_a_a1_apply _ _ i (0 : Fin 1)).trans ?_
  refine (Ideal.multiReduction_maximumf_single _ _ _ _ _ (ix1 i)).trans ?_
  refine congrArg (fun f => Finset.fold max (Ideal.ofBits .f32 0xFF800000#32) f (Finset.univ : Finset (Fin 512))) ?_
  funext k
  exact congrArg (k0_pay9 (F := Ideal) x1 x4 q x5) (funext fun a => Fin.ext (by
    match a with
    | ⟨0, _⟩ => rfl
    | ⟨1, _⟩ => rfl))

/-- The rescaling factor of the old statistics: the exponential of the old maximum minus the new one. -/
theorem pay11_apply (x1 : FVec Ideal S1x512x128 .f32) (x4 : FVec Ideal S128x128 .f32) (q : FVec Ideal S2048x128 .bf16)
    (x5 : FVec Ideal S1x1x512 .f32) (v24 v26 : FVec Ideal S2048x1 .f32) (i : Fin 2048) :
    k0_pay11 (F := Ideal) x1 x4 q x5 v24 v26 (ix2 i (0 : Fin 1))
      = Ideal.exp (v26 (ix2 i (0 : Fin 1)) - k0_pay10 (F := Ideal) x1 x4 q x5 v24 (ix2 i (0 : Fin 1))) := by
  unfold k0_pay11
  rfl

/-- The tile's weights: the exponential of each masked score minus the new maximum of its row. -/
theorem pay12_apply (x1 : FVec Ideal S1x512x128 .f32) (x4 : FVec Ideal S128x128 .f32) (q : FVec Ideal S2048x128 .bf16)
    (x5 : FVec Ideal S1x1x512 .f32) (v24 : FVec Ideal S2048x1 .f32) (i : Fin 2048) (k : Fin 512) :
    k0_pay12 (F := Ideal) x1 x4 q x5 v24 (ix2 i k)
      = Ideal.exp (k0_pay9 (F := Ideal) x1 x4 q x5 (ix2 i k) - k0_pay10 (F := Ideal) x1 x4 q x5 v24 (ix2 i (0 : Fin 1))) := by
  unfold k0_pay12
  exact congrArg (fun t => Ideal.exp (k0_pay9 (F := Ideal) x1 x4 q x5 (ix2 i k) - t)) (broadcastTo_a1_ab_apply _ _ i k)

/-- The old normaliser rescaled. -/
theorem pay13_apply (x1 : FVec Ideal S1x512x128 .f32) (x4 : FVec Ideal S128x128 .f32) (q : FVec Ideal S2048x128 .bf16)
    (x5 : FVec Ideal S1x1x512 .f32) (v24 v26 v32 : FVec Ideal S2048x1 .f32) (i : Fin 2048) :
    k0_pay13 (F := Ideal) x1 x4 q x5 v24 v26 v32 (ix2 i (0 : Fin 1))
      = k0_pay11 (F := Ideal) x1 x4 q x5 v24 v26 (ix2 i (0 : Fin 1)) * v32 (ix2 i (0 : Fin 1)) := by
  unfold k0_pay13
  rfl

/-- The new normaliser: the rescaled old one plus the sum of the tile's weights along row `i`. -/
theorem pay1_apply (v31 : FVec Ideal S2048x512 .f32) (v33 : FVec Ideal S2048x1 .f32) (i : Fin 2048) :
    k0_pay1 (F := Ideal) v31 v33 (ix2 i (0 : Fin 1)) = v33 (ix2 i (0 : Fin 1)) + ∑ k : Fin 512, v31 (ix2 i k) := by
  unfold k0_pay1
  refine (congrFun (shapeCast_self _ _) _).trans ?_
  refine (addf_apply _ _ _).trans ?_
  refine congrArg (v33 (ix2 i (0 : Fin 1)) + ·) ?_
  refine (shapeCast_a_a1_apply _ _ i (0 : Fin 1)).trans ?_
  refine (Ideal.multiReduction_add_single _ _ _ _ _ (ix1 i)).trans ?_
  refine Finset.sum_congr rfl fun k _ => ?_
  exact congrArg v31 (funext fun a => Fin.ext (by
    match a with
    | ⟨0, _⟩ => rfl
    | ⟨1, _⟩ => rfl))

/-- The new accumulator: the old one rescaled row by row, plus the tile's weights applied to the tile's values. -/
theorem pay2_apply (v28 : FVec Ideal S2048x1 .f32) (v31 : FVec Ideal S2048x512 .f32) (v40 : FVec Ideal S1x512x128 .f32)
    (v43 : FVec Ideal S2048x128 .f32) (i : Fin 2048) (d : Fin 128) :
    k0_pay2 (F := Ideal) v28 v31 v40 v43 (ix2 i d)
      = v28 (ix2 i (0 : Fin 1)) * v43 (ix2 i d) + ∑ k : Fin 512, v31 (ix2 i k) * v40 (ix3 (0 : Fin 1) k d) := by
  unfold k0_pay2
  refine (congrFun (shapeCast_self _ _) _).trans ?_
  refine (addf_apply _ _ _).trans ?_
  refine congrArg₂ (· + ·) ?_ ?_
  · exact congrArg (· * v43 (ix2 i d)) (broadcastTo_a1_ab_apply v28 _ i d)
  · refine (matmul_mix_apply _ _ i d).trans ?_
    refine Finset.sum_congr rfl fun k _ => ?_
    exact congrArg (v31 (ix2 i k) * ·) (shapeCast_1ab_ab_apply v40 _ k d)

/-- The running maximum is stored as it is. -/
theorem pay3_eq (v25 : FVec Ideal S2048x1 .f32) : k0_pay3 (F := Ideal) v25 = v25 := by
  unfold k0_pay3
  exact shapeCast_self _ _

/-- The output: the accumulator divided, row by row, by the normaliser. -/
theorem pay4_apply (v58 : FVec Ideal S2048x128 .f32) (v59 : FVec Ideal S2048x1 .f32) (i : Fin 2048) (d : Fin 128) :
    k0_pay4 (F := Ideal) v58 v59 (ix3 (0 : Fin 1) i d) = Ideal.div (v58 (ix2 i d)) (v59 (ix2 i (0 : Fin 1))) := by
  unfold k0_pay4
  refine (shapeCast_ab_1ab_apply _ _ (0 : Fin 1) i d).trans ?_
  exact congrArg (Ideal.div (v58 (ix2 i d))) (broadcastTo_a1_ab_apply v59 _ i d)

/-- The initial running maximum is minus infinity everywhere. -/
theorem pay6_apply (j : S2048x1.Idx) : (k0_pay6 (F := Ideal)) j = Ideal.ofBits .f32 0xFF800000#32 := by
  unfold k0_pay6
  exact congrFun (shapeCast_self _ _) j

/-- The initial normaliser is zero everywhere. -/
theorem pay7_apply (j : S2048x1.Idx) : (k0_pay7 (F := Ideal)) j = Ideal.ofBits .f32 0x00000000#32 := by
  unfold k0_pay7
  exact congrFun (shapeCast_self _ _) j

/-- The initial accumulator is zero everywhere. -/
theorem pay8_apply (j : S2048x128.Idx) : (k0_pay8 (F := Ideal)) j = Ideal.ofBits .f32 0x00000000#32 := by
  unfold k0_pay8
  exact congrFun (shapeCast_self _ _) j

end Cert.KernelIdeal.Pay

end
-- ==== Proof.OnlineSoftmax.lean ====
/-
  The algebra of the online softmax, over the extended reals, with no program in sight.

  A row of attention keeps three running quantities while it walks over the keys tile by tile: a shift `m`,
  a normaliser `l` and a weighted sum `acc`. After the keys `J` have been seen they are, for SOME real `μ`,
      m = μ,   l = ∑_{j ∈ J} exp (σ j - μ),   acc d = ∑_{j ∈ J} exp (σ j - μ) · v j d
  (`Summ`). Which real `μ` is does not matter: the quotient `acc d / l` is the same for every shift, because
  exp (σ j - μ) = exp (M - μ) · exp (σ j - M) and the common factor cancels. So the running maximum never has
  to be identified with the true maximum: it only has to be a real number, which it is as soon as one key has
  been seen and every score is real.

  `Summ.first` is the first tile (from `m = -∞`, `l = 0`, `acc = 0`: the old state is scaled by exp (-∞) = 0),
  `Summ.step` a later tile (the old state is scaled by exp (μ - μ')), `Summ.div_eq` the closing identity: the
  quotient is the softmax-weighted sum of the values, the softmax taken at any real shift `M`.
-/
import Idealize.ShloMosaic.PureOps.Ideal

open Idealize.ShloMosaic

namespace Cert.OnlineSoftmax

/-- The coercion of a finite sum of reals is the sum of the coercions. -/
theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The coercion of reals into the extended reals commutes with `max` (it is monotone). -/
theorem coe_max (a b : ℝ) : ((max a b : ℝ) : EReal) = max (a : EReal) (b : EReal) :=
  EReal.coe_strictMono.monotone.map_max

/-- The maximum of finitely many reals, folded from `-∞`, is `-∞` over no index and a real otherwise. -/
theorem fold_max_coe {ι : Type*} [DecidableEq ι] (S : Finset ι) (f : ι → ℝ) :
    (S = ∅ ∧ S.fold max (⊥ : EReal) (fun j => (f j : EReal)) = ⊥)
      ∨ ∃ μ : ℝ, S.fold max (⊥ : EReal) (fun j => (f j : EReal)) = (μ : EReal) := by
  induction S using Finset.induction_on with
  | empty => exact Or.inl ⟨rfl, rfl⟩
  | insert a S ha ih =>
    refine Or.inr ?_
    rw [Finset.fold_insert ha]
    rcases ih with ⟨_, h⟩ | ⟨μ, h⟩
    · exact ⟨f a, by rw [h, max_eq_left bot_le]⟩
    · exact ⟨max (f a) μ, by rw [h, coe_max]⟩

/-- Over a nonempty index type it is a real. -/
theorem fold_max_real {κ : Type*} [Fintype κ] [Nonempty κ] (f : κ → ℝ) :
    ∃ μ : ℝ, (Finset.univ : Finset κ).fold max (⊥ : EReal) (fun k => (f k : EReal)) = (μ : EReal) := by
  classical
  rcases fold_max_coe (Finset.univ : Finset κ) f with ⟨h, _⟩ | h
  · exact absurd h Finset.univ_nonempty.ne_empty
  · exact h

variable {ι δ : Type*} [DecidableEq ι]

/-- The running state `(m, l, acc)` of a row summarises the keys `J`, with real scores `σ` and real values `v`, at
    some real shift. -/
def Summ (J : Finset ι) (σ : ι → ℝ) (v : ι → δ → ℝ) (m l : EReal) (acc : δ → EReal) : Prop :=
  ∃ μ : ℝ, m = (μ : EReal) ∧ l = ((∑ j ∈ J, Real.exp (σ j - μ) : ℝ) : EReal)
    ∧ ∀ d, acc d = ((∑ j ∈ J, Real.exp (σ j - μ) * v j d : ℝ) : EReal)

/-- The first tile. From the empty state `(-∞, 0, 0)` one tile of keys `e k` (scores `s`, values `vv`) leaves the
    state summarising exactly that tile: the new shift is the tile's maximum, a real, and the old state is scaled by
    exp (-∞ - μ') = 0. -/
theorem Summ.first {κ : Type*} [Fintype κ] [Nonempty κ] (σ : ι → ℝ) (v : ι → δ → ℝ) (e : κ → ι)
    (he : Function.Injective e) (s : κ → EReal) (vv : κ → δ → EReal)
    (hs : ∀ k, s k = (σ (e k) : EReal)) (hv : ∀ k d, vv k d = (v (e k) d : EReal)) :
    Summ (Finset.univ.image e) σ v
      (max (⊥ : EReal) ((Finset.univ : Finset κ).fold max ⊥ s))
      (Ideal.exp (⊥ - max (⊥ : EReal) ((Finset.univ : Finset κ).fold max ⊥ s)) * 0
        + ∑ k, Ideal.exp (s k - max (⊥ : EReal) ((Finset.univ : Finset κ).fold max ⊥ s)))
      (fun d => Ideal.exp (⊥ - max (⊥ : EReal) ((Finset.univ : Finset κ).fold max ⊥ s)) * 0
        + ∑ k, Ideal.exp (s k - max (⊥ : EReal) ((Finset.univ : Finset κ).fold max ⊥ s)) * vv k d) := by
  obtain ⟨μ, hμ⟩ := fold_max_real (fun k => σ (e k))
  have hs' : s = fun k => (σ (e k) : EReal) := funext hs
  rw [hs', hμ, max_eq_right bot_le]
  refine ⟨μ, rfl, ?_, fun d => ?_⟩
  · beta_reduce
    rw [mul_zero, zero_add, Finset.sum_image (fun a _ b _ h => he h), coe_sum]
    exact Finset.sum_congr rfl fun k _ => by rw [← EReal.coe_sub, Ideal.exp_coe]
  · beta_reduce
    rw [mul_zero, zero_add, Finset.sum_image (fun a _ b _ h => he h), coe_sum]
    exact Finset.sum_congr rfl fun k _ => by rw [← EReal.coe_sub, Ideal.exp_coe, hv, EReal.coe_mul]

/-- A later tile. If the state summarises `J` and the tile's keys are new, the updated state summarises `J` and the
    tile: with `μ'` the larger of the old shift and the tile's maximum, the old sums are scaled by exp (μ - μ'),
    which turns exp (σ j - μ) into exp (σ j - μ'). -/
theorem Summ.step {κ : Type*} [Fintype κ] [Nonempty κ] {J : Finset ι} {σ : ι → ℝ} {v : ι → δ → ℝ}
    {m l : EReal} {acc : δ → EReal} (h : Summ J σ v m l acc) (e : κ → ι) (he : Function.Injective e)
    (hd : ∀ k, e k ∉ J) (s : κ → EReal) (vv : κ → δ → EReal)
    (hs : ∀ k, s k = (σ (e k) : EReal)) (hv : ∀ k d, vv k d = (v (e k) d : EReal)) :
    Summ (J ∪ Finset.univ.image e) σ v
      (max m ((Finset.univ : Finset κ).fold max ⊥ s))
      (Ideal.exp (m - max m ((Finset.univ : Finset κ).fold max ⊥ s)) * l
        + ∑ k, Ideal.exp (s k - max m ((Finset.univ : Finset κ).fold max ⊥ s)))
      (fun d => Ideal.exp (m - max m ((Finset.univ : Finset κ).fold max ⊥ s)) * acc d
        + ∑ k, Ideal.exp (s k - max m ((Finset.univ : Finset κ).fold max ⊥ s)) * vv k d) := by
  obtain ⟨μ, rfl, rfl, hacc⟩ := h
  obtain ⟨μ₀, hμ₀⟩ := fold_max_real (fun k => σ (e k))
  have hs' : s = fun k => (σ (e k) : EReal) := funext hs
  rw [hs', hμ₀, ← coe_max]
  have hdisj : Disjoint J (Finset.univ.image e) := by
    rw [Finset.disjoint_right]
    intro j hj
    obtain ⟨k, _, rfl⟩ := Finset.mem_image.mp hj
    exact hd k
  have hscale : ∀ j, Real.exp (μ - max μ μ₀) * Real.exp (σ j - μ) = Real.exp (σ j - max μ μ₀) := fun j => by
    rw [← Real.exp_add]; congr 1; ring
  refine ⟨max μ μ₀, rfl, ?_, fun d => ?_⟩
  · beta_reduce
    rw [Finset.sum_union hdisj, Finset.sum_image (fun a _ b _ h => he h), EReal.coe_add, coe_sum Finset.univ,
      ← EReal.coe_sub, Ideal.exp_coe, ← EReal.coe_mul, Finset.mul_sum]
    refine congrArg₂ (· + ·) ?_ ?_
    · exact congrArg _ (Finset.sum_congr rfl fun j _ => hscale j)
    · exact Finset.sum_congr rfl fun k _ => by rw [← EReal.coe_sub, Ideal.exp_coe]
  · beta_reduce
    rw [hacc d, Finset.sum_union hdisj, Finset.sum_image (fun a _ b _ h => he h), EReal.coe_add, coe_sum Finset.univ,
      ← EReal.coe_sub, Ideal.exp_coe, ← EReal.coe_mul, Finset.mul_sum]
    refine congrArg₂ (· + ·) ?_ ?_
    · exact congrArg _ (Finset.sum_congr rfl fun j _ => by rw [← mul_assoc, hscale j])
    · exact Finset.sum_congr rfl fun k _ => by rw [← EReal.coe_sub, Ideal.exp_coe, hv, EReal.coe_mul]

/-- The closing identity. Once every key has been seen, the quotient `acc d / l` is the softmax-weighted sum of the
    values — the softmax normalised at ANY real shift `M`, the common factor exp (M - μ) cancelling —, written as a
    reference computes it: each weight exp (σ j - M) divided by `0 + ∑ exp (σ j' - M)`, then multiplied by the
    value and summed. -/
theorem Summ.div_eq [Fintype ι] [Nonempty ι] {σ : ι → ℝ} {v : ι → δ → ℝ} {m l : EReal} {acc : δ → EReal}
    (h : Summ Finset.univ σ v m l acc) (M : ℝ) (d : δ) :
    Ideal.div (acc d) l
      = ∑ j, Ideal.div (Ideal.exp ((σ j : EReal) - (M : EReal)))
          (0 + ∑ j', Ideal.exp ((σ j' : EReal) - (M : EReal))) * (v j d : EReal) := by
  obtain ⟨μ, rfl, rfl, hacc⟩ := h
  have hL : (∑ j, Real.exp (σ j - μ)) ≠ 0 :=
    (Finset.sum_pos (fun j _ => Real.exp_pos _) Finset.univ_nonempty).ne'
  have hS : (∑ j, Real.exp (σ j - M)) ≠ 0 :=
    (Finset.sum_pos (fun j _ => Real.exp_pos _) Finset.univ_nonempty).ne'
  have hsum : (0 : EReal) + ∑ j', Ideal.exp ((σ j' : EReal) - (M : EReal)) = ((∑ j, Real.exp (σ j - M) : ℝ) : EReal) := by
    rw [zero_add, coe_sum]
    exact Finset.sum_congr rfl fun j _ => by rw [← EReal.coe_sub, Ideal.exp_coe]
  rw [hacc d, hsum, Ideal.div_coe hL, ← EReal.coe_mul]
  have hterm : ∀ j, Ideal.div (Ideal.exp ((σ j : EReal) - (M : EReal))) ((∑ j, Real.exp (σ j - M) : ℝ) : EReal) * (v j d : EReal)
      = ((Real.exp (σ j - M) * (1 / ∑ j, Real.exp (σ j - M)) * v j d : ℝ) : EReal) := fun j => by
    rw [Ideal.div_coe hS, ← EReal.coe_sub, Ideal.exp_coe, ← EReal.coe_mul, ← EReal.coe_mul]
  rw [Finset.sum_congr rfl fun j _ => hterm j, ← coe_sum]
  congr 1
  have hfac : ∀ j, Real.exp (σ j - μ) = Real.exp (M - μ) * Real.exp (σ j - M) := fun j => by
    rw [← Real.exp_add]; congr 1; ring
  have hE : Real.exp (M - μ) ≠ 0 := (Real.exp_pos _).ne'
  simp only [hfac, mul_assoc, ← Finset.mul_sum]
  rw [Finset.sum_congr rfl fun j _ => show Real.exp (σ j - M) * ((1 / ∑ j, Real.exp (σ j - M)) * v j d)
      = (1 / ∑ j, Real.exp (σ j - M)) * (Real.exp (σ j - M) * v j d) from by ring, ← Finset.mul_sum]
  field_simp

end Cert.OnlineSoftmax
-- ==== Proof.AttentionSpec.lean ====
/-
  What both programs compute, as functions of the six argument arrays over the extended reals.

  With q = Q·Wq and k = K·Wk (rows of 128 features), the masked score of query row `i` against key row `j` in
  batch `b` is
      s b i j = mask b j · ⟨q b i, k b j⟩ + (1 - mask b j) · c        (c the finite stand-in for -∞, as printed),
  and the result at (b, i, d) is the softmax of row `s b i ·` applied to column `d` of the values:
      ∑_j  exp (s j - M) / (0 + ∑_j' exp (s j' - M)) · V b j d,        M = max (-∞) (max_j s j).
  `attnAt` is that result, written as a host program computes it (each weight divided, then multiplied by
  the value); `attn` the whole array.
-/
import Idealize.ShloMosaic.Lib.ValueIdx
import Idealize.ShloMosaic.PureOps.Ideal.Laws

open Idealize.ShloMosaic Idealize.ShloMosaic.ValueIdx

namespace Cert.Attn

/-- query / key / value arrays: [batch 8, sequence 2048, feature 128]. -/
abbrev QKV := (⟨3, ![8, 2048, 128]⟩ : Shape).Idx → EReal
/-- the mask: [batch 8, key 2048]. -/
abbrev Msk := (⟨2, ![8, 2048]⟩ : Shape).Idx → EReal
/-- a projection matrix: [128, 128]. -/
abbrev Wt := (⟨2, ![128, 128]⟩ : Shape).Idx → EReal

/-- The pattern of `-∞` is the bottom element. -/
theorem negInf_eq : Ideal.ofBits .f32 0xFF800000#32 = (⊥ : EReal) := by
  simp [Ideal.ofBits, Ideal.ieee]

/-- A projected row: (X · W) at (b, i, h). -/
noncomputable def proj (X : QKV) (W : Wt) (b : Fin 8) (i : Fin 2048) (h : Fin 128) : EReal :=
  ∑ d : Fin 128, X (ix3 b i d) * W (ix2 d h)

/-- The masked score of query row `i` against key row `j` in batch `b`. -/
noncomputable def score (Q K : QKV) (M : Msk) (Wq Wk : Wt) (b : Fin 8) (i j : Fin 2048) : EReal :=
  M (ix2 b j) * (∑ h : Fin 128, proj Q Wq b i h * proj K Wk b j h)
    + (Ideal.ofBits .f32 0x3F800000#32 - M (ix2 b j)) * Ideal.ofBits .f32 0xF149F2CA#32

/-- The shift a host softmax subtracts: the row's maximum, folded from `-∞`, and once more against `-∞`. -/
noncomputable def rowMax (s : Fin 2048 → EReal) : EReal :=
  max (Ideal.ofBits .f32 0xFF800000#32)
    ((Finset.univ : Finset (Fin 2048)).fold max (Ideal.ofBits .f32 0xFF800000#32) s)

/-- The softmax of the row `s` applied to the column `v`: each weight normalised, then times its value, summed. -/
noncomputable def softmaxRow (s v : Fin 2048 → EReal) : EReal :=
  ∑ j : Fin 2048, Ideal.div (Ideal.exp (s j - rowMax s))
      (Ideal.ofBits .f32 0x00000000#32 + ∑ j' : Fin 2048, Ideal.exp (s j' - rowMax s)) * v j

/-- The attention result at (b, i, d). -/
noncomputable def attnAt (Q K V : QKV) (M : Msk) (Wq Wk : Wt) (b : Fin 8) (i : Fin 2048) (d : Fin 128) : EReal :=
  softmaxRow (fun j => score Q K M Wq Wk b i j) (fun j => V (ix3 b j d))

/-- The whole result array. -/
noncomputable def attn (Q K V : QKV) (M : Msk) (Wq Wk : Wt) : QKV := fun idx =>
  attnAt Q K V M Wq Wk ⟨(idx 0).val, (idx 0).isLt⟩ ⟨(idx 1).val, (idx 1).isLt⟩ ⟨(idx 2).val, (idx 2).isLt⟩

theorem attn_apply (Q K V : QKV) (M : Msk) (Wq Wk : Wt) (b : Fin 8) (i : Fin 2048) (d : Fin 128) :
    attn Q K V M Wq Wk (ix3 b i d) = attnAt Q K V M Wq Wk b i d := rfl

end Cert.Attn
-- ==== Proof.SoftmaxMeets.lean ====
/-
  The online softmax meets the specification. If every score and value of a row is real and a running state
  `(m, l, acc)` summarises all the keys of the row (OnlineSoftmax.lean), then `acc d / l` is the softmax row of
  AttentionSpec.lean: the row maximum of real scores is a real, and the quotient does not depend on the shift.
-/
import proofs.«407200_j45148696215770_3_alg».proof.Proof.OnlineSoftmax
import proofs.«407200_j45148696215770_3_alg».proof.Proof.AttentionSpec

open Idealize.ShloMosaic Idealize.ShloMosaic.ValueIdx

namespace Cert.Attn

/-- The online softmax meets the specification: a state summarising every key of a row whose scores `s` and values
    `v` are real has quotient the softmax row. The row maximum of real scores is a real, and the quotient does not
    depend on the shift (`OnlineSoftmax.Summ.div_eq`). -/
theorem softmaxRow_of_summ {σ : Fin 2048 → ℝ} {w : Fin 2048 → Fin 128 → ℝ} {m l : EReal} {acc : Fin 128 → EReal}
    (h : Cert.OnlineSoftmax.Summ Finset.univ σ w m l acc) (s : Fin 2048 → EReal) (v : Fin 2048 → EReal) (d : Fin 128)
    (hs : ∀ j, s j = (σ j : EReal)) (hv : ∀ j, v j = (w j d : EReal)) :
    Ideal.div (acc d) l = softmaxRow s v := by
  obtain ⟨M₀, hM₀⟩ := Cert.OnlineSoftmax.fold_max_real σ
  have hs' : s = fun j => (σ j : EReal) := funext hs
  have hv' : v = fun j => (w j d : EReal) := funext hv
  unfold softmaxRow rowMax
  rw [hs', hv', negInf_eq, hM₀, max_eq_right bot_le, Ideal.ofBits_zero_f32]
  exact h.div_eq M₀ d

end Cert.Attn
-- ==== Proof.GridIndex.lean ====
/-
  The grid of the kernel, read as (batch, key tile). The 32 grid points are walked batch by batch, the four key
  tiles of a batch one after the other: point `t` works on batch `t / 4` and key tile `t % 4`; local key row `k`
  of tile `kt` is global key row `512 · kt + k`; after `n` tiles of a batch the keys below `512 · n` have been seen.
-/
import proofs.«407200_j45148696215770_3_alg».proof.Proof.Gen.KernelIdeal.Launch

namespace Cert.KernelIdeal.Grid

open Cert.KernelIdeal Cert.KernelIdeal.Gen Idealize.ShloMosaic

/-- The grid has 8 · 4 = 32 points. -/
theorem N_eq : cfg0.N = 32 := N_0

/-- The batch grid point `t` works on. -/
def batchOf (t : Fin cfg0.N) : Fin 8 := ⟨t.val / 4, by have h : t.val < 32 := lt_of_lt_of_eq t.isLt N_eq; omega⟩

/-- The key tile grid point `t` works on. -/
def tileOf (t : Fin cfg0.N) : Fin 4 := ⟨t.val % 4, Nat.mod_lt _ (by decide)⟩

/-- The global key row of local row `k` of key tile `kt`. -/
def keyRow (kt : Fin 4) (k : Fin 512) : Fin 2048 := ⟨512 * kt.val + k.val, by have := kt.isLt; have := k.isLt; omega⟩

theorem keyRow_val (kt : Fin 4) (k : Fin 512) : (keyRow kt k).val = 512 * kt.val + k.val := rfl

theorem keyRow_injective (kt : Fin 4) : Function.Injective (keyRow kt) := fun a b h => by
  have := congrArg Fin.val h
  simp only [keyRow_val] at this
  exact Fin.ext (by omega)

/-- The keys seen after `n` tiles. -/
def seen (n : ℕ) : Finset (Fin 2048) := Finset.univ.filter fun j => j.val < 512 * n

theorem mem_seen (n : ℕ) (j : Fin 2048) : j ∈ seen n ↔ j.val < 512 * n := by
  simp [seen]

theorem keyRow_not_mem_seen (kt : Fin 4) (k : Fin 512) : keyRow kt k ∉ seen kt.val := by
  rw [mem_seen, keyRow_val]; omega

/-- One more tile adds exactly its 512 rows. -/
theorem seen_succ (kt : Fin 4) : seen (kt.val + 1) = seen kt.val ∪ Finset.univ.image (keyRow kt) := by
  ext j
  simp only [mem_seen, Finset.mem_union, Finset.mem_image, Finset.mem_univ, true_and]
  constructor
  · intro h
    by_cases hj : j.val < 512 * kt.val
    · exact Or.inl hj
    · exact Or.inr ⟨⟨j.val - 512 * kt.val, by omega⟩, Fin.ext (by simp only [keyRow_val]; omega)⟩
  · rintro (h | ⟨k, rfl⟩)
    · omega
    · have := k.isLt; simp only [keyRow_val]; omega

theorem seen_one : seen 1 = Finset.univ.image (keyRow 0) := by
  have h := seen_succ 0
  have h0 : seen (0 : Fin 4).val = ∅ := by
    ext j; simp [mem_seen]
  rw [h0, Finset.empty_union] at h
  exact h

theorem seen_four : seen 4 = Finset.univ := by
  ext j; have := j.isLt; simp only [mem_seen, Finset.mem_univ, iff_true]; omega

end Cert.KernelIdeal.Grid
-- ==== Proof.RowUpdate.lean ====
/-
  One query row's update by one key tile is the online softmax's step.

  Read at row `i`, the kernel's update of (running maximum, normaliser, weighted sum) by a tile of 512 keys is
      m' = max m (max_k s k),
      l' = exp (m - m') · l + ∑_k exp (s k - m'),
      acc' d = exp (m - m') · acc d + ∑_k exp (s k - m') · v k d,
  with `s k` the masked score of the row against the tile's key `k` and `v k d` the tile's value block
  (`newM_apply`, `newL_apply`, `newAcc_apply`). When the tile's blocks are rows of the key, value, mask and `Wk`
  arrays and the projected queries are the projection of the query array, `s k` is the specification's score
  (`tile_score`); so if every score and value of the row is real, the update carries the summary of the keys seen so
  far to the summary of those and the tile's (`row_later`), and from the reset state (-∞, 0, 0) it gives the summary
  of the first tile (`row_first`) — OnlineSoftmax.lean's `Summ.step` and `Summ.first`.
-/
import proofs.«407200_j45148696215770_3_alg».proof.Proof.Transitions
import proofs.«407200_j45148696215770_3_alg».proof.Proof.PayloadsAt
import proofs.«407200_j45148696215770_3_alg».proof.Proof.SoftmaxMeets
import proofs.«407200_j45148696215770_3_alg».proof.Proof.GridIndex

noncomputable section

namespace Cert.KernelIdeal.Row

open Cert.KernelIdeal Cert.KernelIdeal.Gen Cert.KernelIdeal.Grid Cert.KernelIdeal.Trans Cert.KernelIdeal.Pay
open Cert.Attn Cert.OnlineSoftmax Idealize.ShloMosaic Idealize.ShloMosaic.ValueIdx

/-- The new running maximum at row `i`. -/
theorem newM_apply (x1 : FVec Ideal S1x512x128 .f32) (x4 : FVec Ideal S128x128 .f32) (q : FVec Ideal S2048x128 .bf16) (x5 : FVec Ideal S1x1x512 .f32) (m0 : FVec Ideal S2048x1 .f32) (i : Fin 2048) :
    newM (F := Ideal) x1 x4 q x5 m0 (ix2 i (0 : Fin 1)) = max (m0 (ix2 i (0 : Fin 1))) ((Finset.univ : Finset (Fin 512)).fold max (⊥ : EReal) (fun k => k0_pay9 (F := Ideal) x1 x4 q x5 (ix2 i k))) := by
  show k0_pay3 (F := Ideal) (k0_pay10 (F := Ideal) x1 x4 q x5 m0) (ix2 i (0 : Fin 1)) = _
  rw [pay3_eq, pay10_apply, negInf_eq]

/-- The new running normaliser at row `i`. -/
theorem newL_apply (x1 : FVec Ideal S1x512x128 .f32) (x4 : FVec Ideal S128x128 .f32) (q : FVec Ideal S2048x128 .bf16) (x5 : FVec Ideal S1x1x512 .f32) (m0 l0 : FVec Ideal S2048x1 .f32) (i : Fin 2048) :
    newL (F := Ideal) x1 x4 q x5 m0 l0 (ix2 i (0 : Fin 1))
      = Ideal.exp (m0 (ix2 i (0 : Fin 1)) - max (m0 (ix2 i (0 : Fin 1))) ((Finset.univ : Finset (Fin 512)).fold max (⊥ : EReal) (fun k => k0_pay9 (F := Ideal) x1 x4 q x5 (ix2 i k)))) * l0 (ix2 i (0 : Fin 1))
        + ∑ k : Fin 512, Ideal.exp (k0_pay9 (F := Ideal) x1 x4 q x5 (ix2 i k) - max (m0 (ix2 i (0 : Fin 1))) ((Finset.univ : Finset (Fin 512)).fold max (⊥ : EReal) (fun k => k0_pay9 (F := Ideal) x1 x4 q x5 (ix2 i k)))) := by
  show k0_pay1 (F := Ideal) (k0_pay12 (F := Ideal) x1 x4 q x5 m0) (k0_pay13 (F := Ideal) x1 x4 q x5 m0 m0 l0) (ix2 i (0 : Fin 1)) = _
  rw [pay1_apply, pay13_apply, pay11_apply]
  simp only [pay12_apply]
  rw [pay10_apply, negInf_eq]

/-- The new running weighted sum at row `i`, column `d`. -/
theorem newAcc_apply (x1 : FVec Ideal S1x512x128 .f32) (x4 : FVec Ideal S128x128 .f32) (q : FVec Ideal S2048x128 .bf16) (x5 : FVec Ideal S1x1x512 .f32) (x2 : FVec Ideal S1x512x128 .f32) (m0 : FVec Ideal S2048x1 .f32) (a0 : FVec Ideal S2048x128 .f32)
    (i : Fin 2048) (d : Fin 128) :
    newAcc (F := Ideal) x1 x2 x4 q x5 m0 a0 (ix2 i d)
      = Ideal.exp (m0 (ix2 i (0 : Fin 1)) - max (m0 (ix2 i (0 : Fin 1))) ((Finset.univ : Finset (Fin 512)).fold max (⊥ : EReal) (fun k => k0_pay9 (F := Ideal) x1 x4 q x5 (ix2 i k)))) * a0 (ix2 i d)
        + ∑ k : Fin 512, Ideal.exp (k0_pay9 (F := Ideal) x1 x4 q x5 (ix2 i k) - max (m0 (ix2 i (0 : Fin 1))) ((Finset.univ : Finset (Fin 512)).fold max (⊥ : EReal) (fun k => k0_pay9 (F := Ideal) x1 x4 q x5 (ix2 i k)))) * x2 (ix3 (0 : Fin 1) k d) := by
  show k0_pay2 (F := Ideal) (k0_pay11 (F := Ideal) x1 x4 q x5 m0 m0) (k0_pay12 (F := Ideal) x1 x4 q x5 m0) x2 a0 (ix2 i d) = _
  rw [pay2_apply, pay11_apply]
  simp only [pay12_apply]
  rw [pay10_apply, negInf_eq]

/-- The projected queries: if the query block is batch `b` of the query array and the `Wq` block is `Wq`, the
    projection stored at the first key tile is the specification's. -/
theorem proj_block (Q : QKV) (Wq : Wt) (b : Fin 8) (x0 : FVec Ideal S1x2048x128 .f32) (x3 : FVec Ideal S128x128 .f32)
    (hx0 : ∀ (i : Fin 2048) (d : Fin 128), x0 (ix3 (0 : Fin 1) i d) = Q (ix3 b i d))
    (hx3 : ∀ d h : Fin 128, x3 (ix2 d h) = Wq (ix2 d h)) (i : Fin 2048) (h : Fin 128) :
    k0_pay5 (F := Ideal) x0 x3 (ix2 i h) = proj Q Wq b i h := by
  rw [pay5_apply]
  simp only [hx0, hx3]
  rfl

/-- The output block at row `i`, column `d`: the weighted sum over the normaliser. -/
theorem out_apply (a : FVec Ideal S2048x128 .f32) (l : FVec Ideal S2048x1 .f32) (i : Fin 2048) (d : Fin 128) :
    k0_pay4 (F := Ideal) a l (ix3 (0 : Fin 1) i d) = Ideal.div (a (ix2 i d)) (l (ix2 i (0 : Fin 1))) :=
  pay4_apply a l i d

section Tile

variable (Q K Vv : QKV) (M : Msk) (Wq Wk : Wt) (b : Fin 8) (kt : Fin 4)
variable (x1 : FVec Ideal S1x512x128 .f32) (x4 : FVec Ideal S128x128 .f32) (q : FVec Ideal S2048x128 .bf16) (x5 : FVec Ideal S1x1x512 .f32) (x2 : FVec Ideal S1x512x128 .f32)
variable (hx1 : ∀ (k : Fin 512) (d : Fin 128), x1 (ix3 (0 : Fin 1) k d) = K (ix3 b (keyRow kt k) d))
variable (hx2 : ∀ (k : Fin 512) (d : Fin 128), x2 (ix3 (0 : Fin 1) k d) = Vv (ix3 b (keyRow kt k) d))
variable (hx4 : ∀ d h : Fin 128, x4 (ix2 d h) = Wk (ix2 d h))
variable (hx5 : ∀ k : Fin 512, x5 (ix3 (0 : Fin 1) (0 : Fin 1) k) = M (ix2 b (keyRow kt k)))
variable (hq : ∀ (i : Fin 2048) (h : Fin 128), q (ix2 i h) = proj Q Wq b i h)

include hx1 hx4 hx5 hq in
/-- The tile's masked scores are the specification's scores against the tile's keys. -/
theorem tile_score (i : Fin 2048) (k : Fin 512) :
    k0_pay9 (F := Ideal) x1 x4 q x5 (ix2 i k) = score Q K M Wq Wk b i (keyRow kt k) := by
  rw [pay9_apply]
  simp only [hx1, hx4, hx5, hq]
  rfl

variable (i : Fin 2048) (σ : Fin 2048 → ℝ) (w : Fin 2048 → Fin 128 → ℝ)
variable (hσ : ∀ j, score Q K M Wq Wk b i j = (σ j : EReal)) (hw : ∀ j d, Vv (ix3 b j d) = (w j d : EReal))

include hx1 hx2 hx4 hx5 hq hσ hw in
/-- A later tile: the update carries the summary of the keys seen to the summary of those and the tile's. -/
theorem row_later (m0 l0 : FVec Ideal S2048x1 .f32) (a0 : FVec Ideal S2048x128 .f32)
    (h : Summ (seen kt.val) σ w (m0 (ix2 i (0 : Fin 1))) (l0 (ix2 i (0 : Fin 1))) (fun d => a0 (ix2 i d))) :
    Summ (seen (kt.val + 1)) σ w (newM (F := Ideal) x1 x4 q x5 m0 (ix2 i (0 : Fin 1)))
      (newL (F := Ideal) x1 x4 q x5 m0 l0 (ix2 i (0 : Fin 1))) (fun d => newAcc (F := Ideal) x1 x2 x4 q x5 m0 a0 (ix2 i d)) := by
  rw [seen_succ, newM_apply, newL_apply]
  simp only [newAcc_apply]
  exact h.step (keyRow kt) (keyRow_injective kt) (keyRow_not_mem_seen kt)
    (fun k => k0_pay9 (F := Ideal) x1 x4 q x5 (ix2 i k)) (fun k d => x2 (ix3 (0 : Fin 1) k d))
    (fun k => (tile_score Q K M Wq Wk b kt x1 x4 q x5 hx1 hx4 hx5 hq i k).trans (hσ _))
    (fun k d => (hx2 k d).trans (hw _ d))

end Tile

section First

variable (Q K Vv : QKV) (M : Msk) (Wq Wk : Wt) (b : Fin 8)
variable (x1 : FVec Ideal S1x512x128 .f32) (x4 : FVec Ideal S128x128 .f32) (q : FVec Ideal S2048x128 .bf16) (x5 : FVec Ideal S1x1x512 .f32) (x2 : FVec Ideal S1x512x128 .f32)
variable (hx1 : ∀ (k : Fin 512) (d : Fin 128), x1 (ix3 (0 : Fin 1) k d) = K (ix3 b (keyRow 0 k) d))
variable (hx2 : ∀ (k : Fin 512) (d : Fin 128), x2 (ix3 (0 : Fin 1) k d) = Vv (ix3 b (keyRow 0 k) d))
variable (hx4 : ∀ d h : Fin 128, x4 (ix2 d h) = Wk (ix2 d h))
variable (hx5 : ∀ k : Fin 512, x5 (ix3 (0 : Fin 1) (0 : Fin 1) k) = M (ix2 b (keyRow 0 k)))
variable (hq : ∀ (i : Fin 2048) (h : Fin 128), q (ix2 i h) = proj Q Wq b i h)
variable (i : Fin 2048) (σ : Fin 2048 → ℝ) (w : Fin 2048 → Fin 128 → ℝ)
variable (hσ : ∀ j, score Q K M Wq Wk b i j = (σ j : EReal)) (hw : ∀ j d, Vv (ix3 b j d) = (w j d : EReal))

include hx1 hx2 hx4 hx5 hq hσ hw in
/-- The first tile: from the reset state (-∞, 0, 0) the update gives the summary of the first tile's keys. -/
theorem row_first :
    Summ (seen 1) σ w (newM (F := Ideal) x1 x4 q x5 (k0_pay6 (F := Ideal)) (ix2 i (0 : Fin 1)))
      (newL (F := Ideal) x1 x4 q x5 (k0_pay6 (F := Ideal)) (k0_pay7 (F := Ideal)) (ix2 i (0 : Fin 1)))
      (fun d => newAcc (F := Ideal) x1 x2 x4 q x5 (k0_pay6 (F := Ideal)) (k0_pay8 (F := Ideal)) (ix2 i d)) := by
  rw [seen_one, newM_apply, newL_apply]
  simp only [newAcc_apply, pay6_apply, pay7_apply, pay8_apply, negInf_eq, Ideal.ofBits_zero_f32]
  exact Summ.first σ w (keyRow 0) (keyRow_injective 0)
    (fun k => k0_pay9 (F := Ideal) x1 x4 q x5 (ix2 i k)) (fun k d => x2 (ix3 (0 : Fin 1) k d))
    (fun k => (tile_score Q K M Wq Wk b 0 x1 x4 q x5 hx1 hx4 hx5 hq i k).trans (hσ _))
    (fun k d => (hx2 k d).trans (hw _ d))

end First

end Cert.KernelIdeal.Row

end
-- ==== Proof.BlockReads.lean ====
/-
  The input windows' blocks at a grid point, read as the argument arrays at global indices: the query block of the
  point's batch, the key / value tile of the point's batch and key tile, the two weight matrices whole, and the mask
  tile, whose array is the mask argument with a unit axis put between its two.
-/
import proofs.«407200_j45148696215770_3_alg».proof.Proof.Gen.KernelIdeal.Frame.Runs
import proofs.«407200_j45148696215770_3_alg».proof.Proof.GridIndex
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Grid
open Idealize.ShloMosaic Idealize.ShloMosaic.TcCoe Idealize.ShloMosaic.ValueIdx Idealize.SL.Sem

variable {F : FTy → Type} [FloatOps F] (m : (ℓ : Loc nD τ sig) → Buf (Elt F) ℓ)

/-! ## The index maps over the grid

Each window's block index at point `t`, per axis, from the point's number: decided over the 32 points. -/

/-- The query window stages batch `t / 4`'s whole block. -/
theorem idx0 : ∀ t : Fin cfg0.N, win0_0.index t (0 : Fin 3) = t.val / 4 ∧ win0_0.index t (1 : Fin 3) = 0
    ∧ win0_0.index t (2 : Fin 3) = 0 :=
  (by decide +kernel : ∀ t : Fin grid0.N, _)

/-- The key window stages tile `t % 4` of batch `t / 4`. -/
theorem idx1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- The value window stages tile `t % 4` of batch `t / 4`. -/
theorem idx2 : ∀ t : Fin cfg0.N, win0_2.index t (0 : Fin 3) = t.val / 4 ∧ win0_2.index t (1 : Fin 3) = t.val % 4
    ∧ win0_2.index t (2 : Fin 3) = 0 :=
  (by decide +kernel : ∀ t : Fin grid0.N, _)

/-- The first weight window stages its whole matrix at every point. -/
theorem idx3 : ∀ t : Fin cfg0.N, win0_3.index t (0 : Fin 2) = 0 ∧ win0_3.index t (1 : Fin 2) = 0 :=
  (by decide +kernel : ∀ t : Fin grid0.N, _)

/-- The second weight window stages its whole matrix at every point. -/
theorem idx4 : ∀ t : Fin cfg0.N, win0_4.index t (0 : Fin 2) = 0 ∧ win0_4.index t (1 : Fin 2) = 0 :=
  (by decide +kernel : ∀ t : Fin grid0.N, _)

/-- The mask window stages tile `t % 4` of batch `t / 4`'s one row. -/
theorem idx5 : ∀ t : Fin cfg0.N, win0_5.index t (0 : Fin 3) = t.val / 4 ∧ win0_5.index t (1 : Fin 3) = 0
    ∧ win0_5.index t (2 : Fin 3) = t.val % 4 :=
  (by decide +kernel : ∀ t : Fin grid0.N, _)

/-! ## The blocks -/

/-- The query block at point `t`. -/
abbrev qblk (c : Dev nD) (t : Fin cfg0.N) : Vec F S1x2048x128 .f32 := iblk m c 0 t
/-- The key tile at point `t`. -/
abbrev kblk (c : Dev nD) (t : Fin cfg0.N) : Vec F S1x512x128 .f32 := iblk m c 1 t
/-- The value tile at point `t`. -/
abbrev vblk (c : Dev nD) (t : Fin cfg0.N) : Vec F S1x512x128 .f32 := iblk m c 2 t
/-- The first weight matrix at point `t`. -/
abbrev wqblk (c : Dev nD) (t : Fin cfg0.N) : Vec F S128x128 .f32 := iblk m c 3 t
/-- The second weight matrix at point `t`. -/
abbrev wkblk (c : Dev nD) (t : Fin cfg0.N) : Vec F S128x128 .f32 := iblk m c 4 t
/-- The mask tile at point `t`. -/
abbrev mblk (c : Dev nD) (t : Fin cfg0.N) : Vec F S1x1x512 .f32 := iblk m c 5 t

/-! ## Each block read at an index

A block's coordinate on an axis is the block index times the block's size plus the coordinate inside the block. -/

/-- The query block at `(0, i, d)` is the first argument at `(t / 4, i, d)`. -/
theorem qblk_apply (c : Dev nD) (t : Fin cfg0.N) (i : Fin 2048) (d : Fin 128) :
    qblk m c t (ix3 (0 : Fin 1) i d) = m ((c : Thread nD τ).loc main_arg0) (ix3 (batchOf t) i d) := by
  obtain ⟨e0, e1, e2⟩ := idx0 t
  show V m c main_arg0 (((cfg0.win 0).blk t).view.emb (ix3 (0 : Fin 1) i d)) = _
  rw [V_main_arg0 m c]
  refine congrArg _ (funext fun a => Fin.ext ?_)
  match a with
  | ⟨0, _⟩ => show win0_0.index t (0 : Fin 3) * 1 + 1 * (0 : Fin 1).val = t.val / 4; rw [e0]; simp
  | ⟨1, _⟩ => show win0_0.index t (1 : Fin 3) * 2048 + 1 * i.val = i.val; rw [e1]; omega
  | ⟨2, _⟩ => show win0_0.index t (2 : Fin 3) * 128 + 1 * d.val = d.val; rw [e2]; omega

/-- The key tile at `(0, k, d)` is the second argument at `(t / 4, 512 · (t % 4) + k, d)`. -/
theorem kblk_apply (c : Dev nD) (t : Fin cfg0.N) (k : Fin 512) (d : Fin 128) :
    kblk m c t (ix3 (0 : Fin 1) k d) = m ((c : Thread nD τ).loc main_arg1) (ix3 (batchOf t) (keyRow (tileOf t) k) d) := by
  obtain ⟨e0, e1, e2⟩ := idx1 t
  show V m c main_arg1 (((cfg0.win 1).blk t).view.emb (ix3 (0 : Fin 1) k d)) = _
  rw [V_main_arg1 m c]
  refine congrArg _ (funext fun a => Fin.ext ?_)
  match a with
  | ⟨0, _⟩ => show win0_1.index t (0 : Fin 3) * 1 + 1 * (0 : Fin 1).val = t.val / 4; rw [e0]; simp
  | ⟨1, _⟩ => show win0_1.index t (1 : Fin 3) * 512 + 1 * k.val = 512 * (t.val % 4) + k.val; rw [e1]; omega
  | ⟨2, _⟩ => show win0_1.index t (2 : Fin 3) * 128 + 1 * d.val = d.val; rw [e2]; omega

/-- The value tile at `(0, k, d)` is the third argument at `(t / 4, 512 · (t % 4) + k, d)`. -/
theorem vblk_apply (c : Dev nD) (t : Fin cfg0.N) (k : Fin 512) (d : Fin 128) :
    vblk m c t (ix3 (0 : Fin 1) k d) = m ((c : Thread nD τ).loc main_arg2) (ix3 (batchOf t) (keyRow (tileOf t) k) d) := by
  obtain ⟨e0, e1, e2⟩ := idx2 t
  show V m c main_arg2 (((cfg0.win 2).blk t).view.emb (ix3 (0 : Fin 1) k d)) = _
  rw [V_main_arg2 m c]
  refine congrArg _ (funext fun a => Fin.ext ?_)
  match a with
  | ⟨0, _⟩ => show win0_2.index t (0 : Fin 3) * 1 + 1 * (0 : Fin 1).val = t.val / 4; rw [e0]; simp
  | ⟨1, _⟩ => show win0_2.index t (1 : Fin 3) * 512 + 1 * k.val = 512 * (t.val % 4) + k.val; rw [e1]; omega
  | ⟨2, _⟩ => show win0_2.index t (2 : Fin 3) * 128 + 1 * d.val = d.val; rw [e2]; omega

/-- The first weight block at `(d, h)` is the fifth argument there. -/
theorem wqblk_apply (c : Dev nD) (t : Fin cfg0.N) (d h : Fin 128) :
    wqblk m c t (ix2 d h) = m ((c : Thread nD τ).loc main_arg4) (ix2 d h) := by
  obtain ⟨e0, e1⟩ := idx3 t
  show V m c main_arg4 (((cfg0.win 3).blk t).view.emb (ix2 d h)) = _
  rw [V_main_arg4 m c]
  refine congrArg _ (funext fun a => Fin.ext ?_)
  match a with
  | ⟨0, _⟩ => show win0_3.index t (0 : Fin 2) * 128 + 1 * d.val = d.val; rw [e0]; omega
  | ⟨1, _⟩ => show win0_3.index t (1 : Fin 2) * 128 + 1 * h.val = h.val; rw [e1]; omega

/-- The second weight block at `(d, h)` is the sixth argument there. -/
theorem wkblk_apply (c : Dev nD) (t : Fin cfg0.N) (d h : Fin 128) :
    wkblk m c t (ix2 d h) = m ((c : Thread nD τ).loc main_arg5) (ix2 d h) := by
  obtain ⟨e0, e1⟩ := idx4 t
  show V m c main_arg5 (((cfg0.win 4).blk t).view.emb (ix2 d h)) = _
  rw [V_main_arg5 m c]
  refine congrArg _ (funext fun a => Fin.ext ?_)
  match a with
  | ⟨0, _⟩ => show win0_4.index t (0 : Fin 2) * 128 + 1 * d.val = d.val; rw [e0]; omega
  | ⟨1, _⟩ => show win0_4.index t (1 : Fin 2) * 128 + 1 * h.val = h.val; rw [e1]; omega

/-! ## The mask: its array is the fourth argument with a unit axis put in the middle -/

/-- An `[a, b]` array cast to `[a, 1, b]` reads, at `(i, u, j)`, the operand at `(i, j)`, whatever the unit
    coordinate `u`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The mask window's array when the region is entered: the fourth argument, reshaped. -/
theorem V_main_v0 (c : Dev nD) : (V m c main_v0 : S8x1x2048.Idx → Elt F .f32)
    = shapeCast S8x1x2048 (m ((c : Thread nD τ).loc main_arg3)) shapeCasts_S8x2048_S8x1x2048 := by
  dsimp only [Gen.V, Gen.hostOps0]
  after_results
  rfl

/-- The mask tile at `(0, 0, k)` is the fourth argument at `(t / 4, 512 · (t % 4) + k)`. -/
theorem mblk_apply (c : Dev nD) (t : Fin cfg0.N) (k : Fin 512) :
    mblk m c t (ix3 (0 : Fin 1) (0 : Fin 1) k) = m ((c : Thread nD τ).loc main_arg3) (ix2 (batchOf t) (keyRow (tileOf t) k)) := by
  obtain ⟨e0, e1, e2⟩ := idx5 t
  show V m c main_v0 (((cfg0.win 5).blk t).view.emb (ix3 (0 : Fin 1) (0 : Fin 1) k)) = _
  rw [V_main_v0 m c]
  have hemb : ((cfg0.win 5).blk t).view.emb (ix3 (0 : Fin 1) (0 : Fin 1) k)
      = ix3 (batchOf t) (0 : Fin 1) (keyRow (tileOf t) k) := by
    funext a; apply Fin.ext
    match a with
    | ⟨0, _⟩ => show win0_5.index t (0 : Fin 3) * 1 + 1 * (0 : Fin 1).val = t.val / 4; rw [e0]; simp
    | ⟨1, _⟩ => show win0_5.index t (1 : Fin 3) * 1 + 1 * (0 : Fin 1).val = (0 : Fin 1).val; rw [e1]; simp
    | ⟨2, _⟩ => show win0_5.index t (2 : Fin 3) * 512 + 1 * k.val = 512 * (t.val % 4) + k.val; rw [e2]; omega
  rw [hemb]
  exact shapeCast_ab_a1b_apply _ _ _ _ _

end Cert.KernelIdeal.Blocks

end
-- ==== Proof.RealScores.lean ====
/-
  With real inputs every masked score is real. The two literals of the score (`1.0` and the finite stand-in for
  -∞) have exponent fields that are not all ones, so they denote reals; products, differences and finite sums of
  reals are real.
-/
import proofs.«407200_j45148696215770_3_alg».proof.Proof.AttentionSpec
import proofs.«407200_j45148696215770_3_alg».proof.Proof.OnlineSoftmax

open Idealize.ShloMosaic Idealize.ShloMosaic.ValueIdx Cert.OnlineSoftmax

namespace Cert.Attn

/-- A pattern whose exponent field is not all ones denotes a real number. -/
theorem ieee_real (e mm : ℕ) {w : ℕ} (b : BitVec w) (h : (b.extractLsb' mm e).toNat ≠ 2 ^ e - 1) :
    ∃ r : ℝ, Ideal.ieee e mm b = (r : EReal) := by
  unfold Ideal.ieee
  dsimp only
  rw [if_neg h]
  split <;> exact ⟨_, rfl⟩

theorem one_real : ∃ r : ℝ, Ideal.ofBits .f32 0x3F800000#32 = (r : EReal) :=
  ieee_real 8 23 (0x3F800000#32 : BitVec 32) (by decide)

theorem negBig_real : ∃ r : ℝ, Ideal.ofBits .f32 0xF149F2CA#32 = (r : EReal) :=
  ieee_real 8 23 (0xF149F2CA#32 : BitVec 32) (by decide)

/-- Every masked score of real inputs is real. -/
theorem score_real (Q K : QKV) (M : Msk) (Wq Wk : Wt)
    (hQ : ∀ i, ∃ r : ℝ, Q i = (r : EReal)) (hK : ∀ i, ∃ r : ℝ, K i = (r : EReal))
    (hM : ∀ i, ∃ r : ℝ, M i = (r : EReal)) (hWq : ∀ i, ∃ r : ℝ, Wq i = (r : EReal))
    (hWk : ∀ i, ∃ r : ℝ, Wk i = (r : EReal)) (b : Fin 8) (i j : Fin 2048) :
    ∃ r : ℝ, score Q K M Wq Wk b i j = (r : EReal) := by
  choose Qr hQr using hQ
  choose Kr hKr using hK
  choose Mr hMr using hM
  choose Wqr hWqr using hWq
  choose Wkr hWkr using hWk
  obtain ⟨one, h1⟩ := one_real
  obtain ⟨c, hc⟩ := negBig_real
  refine ⟨Mr (ix2 b j) * (∑ h : Fin 128, (∑ d : Fin 128, Qr (ix3 b i d) * Wqr (ix2 d h))
      * (∑ d : Fin 128, Kr (ix3 b j d) * Wkr (ix2 d h))) + (one - Mr (ix2 b j)) * c, ?_⟩
  unfold score proj
  simp only [hQr, hKr, hMr, hWqr, hWkr, h1, hc, EReal.coe_add, EReal.coe_mul, EReal.coe_sub, coe_sum]

end Cert.Attn
-- ==== Proof.Invariant.lean ====
/-
  The invariant of the carried state, by induction over the grid points, and the output block it gives.

  After grid point `t` (batch `b = t / 4`, key tile `kt = t % 4`), for every query row `i`:
    * the projected-queries scratch holds the projection of the query array's row (b, i) by `Wq`;
    * the running (maximum, normaliser, weighted sum) of the row summarise the keys below 512 · (kt + 1) — the keys
      of tiles 0 … kt — in the sense of OnlineSoftmax.lean, for the real scores of the row and the real values of
      the batch.
  At the first tile of a batch this is the update of the reset state (RowUpdate.lean's `row_first`); at a later
  tile it is the update of the state the point before left, which by induction summarises the tiles before
  (`row_later`). At the last tile all 2048 keys have been seen, and the output block, weighted sum over normaliser,
  is the specification's attention result (`out_row`).
-/
import proofs.«407200_j45148696215770_3_alg».proof.Proof.RowUpdate
import proofs.«407200_j45148696215770_3_alg».proof.Proof.BlockReads
import proofs.«407200_j45148696215770_3_alg».proof.Proof.RealScores

set_option maxRecDepth 16384

noncomputable section

namespace Cert.KernelIdeal.Inv

open Cert.KernelIdeal Cert.KernelIdeal.Gen Cert.KernelIdeal.Grid Cert.KernelIdeal.Trans Cert.KernelIdeal.Row
open Cert.KernelIdeal.Blocks Cert.Attn Cert.OnlineSoftmax
open Idealize.ShloMosaic Idealize.ShloMosaic.TcCoe Idealize.ShloMosaic.ValueIdx Idealize.SL.Sem

variable (m : (ℓ : Loc nD τ sig) → Buf (Elt Ideal) ℓ) (c : Dev nD)

/-- The six argument arrays of core `c`. -/
abbrev Qa : QKV := m ((c : Thread nD τ).loc main_arg0)
abbrev Ka : QKV := m ((c : Thread nD τ).loc main_arg1)
abbrev Va : QKV := m ((c : Thread nD τ).loc main_arg2)
abbrev Ma : Msk := m ((c : Thread nD τ).loc main_arg3)
abbrev Wqa : Wt := m ((c : Thread nD τ).loc main_arg4)
abbrev Wka : Wt := m ((c : Thread nD τ).loc main_arg5)

variable (σ : Fin 8 → Fin 2048 → Fin 2048 → ℝ) (w : Fin 8 → Fin 2048 → Fin 128 → ℝ)
variable (hσ : ∀ b i j, score (Qa m c) (Ka m c) (Ma m c) (Wqa m c) (Wka m c) b i j = (σ b i j : EReal))
variable (hw : ∀ b j d, Va m c (ix3 b j d) = (w b j d : EReal))

/-- What the invariant says at point `t`. -/
def Holds (t : Fin cfg0.N) : Prop :=
  (∀ (i : Fin 2048) (h : Fin 128),
      (outsAt0 m c t.val t.isLt).2.1 (ix2 i h) = proj (Qa m c) (Wqa m c) (batchOf t) i h)
    ∧ ∀ i : Fin 2048, Summ (seen ((tileOf t).val + 1)) (σ (batchOf t) i) (w (batchOf t))
        ((outsAt0 m c t.val t.isLt).2.2.1 (ix2 i (0 : Fin 1))) ((outsAt0 m c t.val t.isLt).2.2.2.1 (ix2 i (0 : Fin 1)))
        (fun d => (outsAt0 m c t.val t.isLt).2.2.2.2 (ix2 i d))

include hσ hw in
/-- The first key tile of a batch. -/
theorem holds_first (t : Fin cfg0.N) (h0 : t.val % 4 = 0) : Holds m c σ w t := by
  have ht0 : tileOf t = 0 := Fin.ext h0
  have hq : ∀ (i : Fin 2048) (h : Fin 128),
      k0_pay5 (F := Ideal) (iblk m c 0 t) (iblk m c 3 t) (ix2 i h) = proj (Qa m c) (Wqa m c) (batchOf t) i h :=
    proj_block (Qa m c) (Wqa m c) (batchOf t) (iblk m c 0 t) (iblk m c 3 t)
      (fun i d => qblk_apply m c t i d) (fun d h => wqblk_apply m c t d h)
  refine ⟨fun i h => ?_, fun i => ?_⟩
  · rw [q_first m c t h0]; exact hq i h
  · rw [m_first m c t h0, l_first m c t h0, acc_first m c t h0, ht0]
    exact row_first (Qa m c) (Ka m c) (Va m c) (Ma m c) (Wqa m c) (Wka m c) (batchOf t)
      (iblk m c 1 t) (iblk m c 4 t) (k0_pay5 (F := Ideal) (iblk m c 0 t) (iblk m c 3 t)) (iblk m c 5 t) (iblk m c 2 t)
      (fun k d => by have e := kblk_apply m c t k d; rw [ht0] at e; exact e)
      (fun k d => by have e := vblk_apply m c t k d; rw [ht0] at e; exact e)
      (fun d h => wkblk_apply m c t d h)
      (fun k => by have e := mblk_apply m c t k; rw [ht0] at e; exact e)
      hq i (σ (batchOf t) i) (w (batchOf t)) (hσ (batchOf t) i) (hw (batchOf t))

include hσ hw in
/-- A later key tile, from the invariant at the point before. -/
theorem holds_later (t : Fin cfg0.N) (h0 : ¬t.val % 4 = 0)
    (ih : Holds m c σ w (⟨t.val - 1, Nat.lt_of_le_of_lt (Nat.sub_le _ _) t.isLt⟩ : Fin cfg0.N)) : Holds m c σ w t := by
  have hb : batchOf (⟨t.val - 1, Nat.lt_of_le_of_lt (Nat.sub_le _ _) t.isLt⟩ : Fin cfg0.N) = batchOf t := Fin.ext (by
    show (t.val - 1) / 4 = t.val / 4; omega)
  have hk : (tileOf (⟨t.val - 1, Nat.lt_of_le_of_lt (Nat.sub_le _ _) t.isLt⟩ : Fin cfg0.N)).val + 1 = (tileOf t).val := by
    show (t.val - 1) % 4 + 1 = t.val % 4; omega
  obtain ⟨ihq, ihs⟩ := ih
  rw [hb] at ihq ihs
  rw [hk] at ihs
  refine ⟨fun i h => ?_, fun i => ?_⟩
  · rw [q_later m c t h0]; exact ihq i h
  · rw [m_later m c t h0, l_later m c t h0, acc_later m c t h0]
    exact row_later (Qa m c) (Ka m c) (Va m c) (Ma m c) (Wqa m c) (Wka m c) (batchOf t) (tileOf t)
      (iblk m c 1 t) (iblk m c 4 t) (outsAt0 m c (t.val - 1) (Nat.lt_of_le_of_lt (Nat.sub_le _ _) t.isLt)).2.1
      (iblk m c 5 t) (iblk m c 2 t)
      (fun k d => kblk_apply m c t k d) (fun k d => vblk_apply m c t k d) (fun d h => wkblk_apply m c t d h)
      (fun k => mblk_apply m c t k) ihq i (σ (batchOf t) i) (w (batchOf t)) (hσ (batchOf t) i) (hw (batchOf t))
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 (ihs i)

include hσ hw in
/-- The invariant holds after every grid point. -/
theorem holds : ∀ (n : ℕ) (hn : n < cfg0.N), Holds m c σ w ⟨n, hn⟩
  | 0, hn => holds_first m c σ w hσ hw ⟨0, hn⟩ rfl
  | n + 1, hn => by
    by_cases h0 : (n + 1) % 4 = 0
    · exact holds_first m c σ w hσ hw ⟨n + 1, hn⟩ h0
    · exact holds_later m c σ w hσ hw ⟨n + 1, hn⟩ h0 (holds n (Nat.lt_of_succ_lt hn))

include hσ hw in
/-- The output block at the last key tile of a batch is the specification's attention result. -/
theorem out_row (t : Fin cfg0.N) (h1 : t.val % 4 = 3) (i : Fin 2048) (d : Fin 128) :
    (outsAt0 m c t.val t.isLt).1 (ix3 (0 : Fin 1) i d)
      = attnAt (Qa m c) (Ka m c) (Va m c) (Ma m c) (Wqa m c) (Wka m c) (batchOf t) i d := by
  have hS := (holds m c σ w hσ hw t.val t.isLt).2 i
  have h4 : (tileOf t).val + 1 = 4 := by show t.val % 4 + 1 = 4; omega
  rw [h4, seen_four] at hS
  rw [out_last m c t h1, out_apply]
  exact softmaxRow_of_summ hS (fun j => score (Qa m c) (Ka m c) (Ma m c) (Wqa m c) (Wka m c) (batchOf t) i j)
    (fun j => Va m c (ix3 (batchOf t) j d)) d (hσ (batchOf t) i) (fun j => hw (batchOf t) j d)

end Cert.KernelIdeal.Inv

end
-- ==== Proof.OutputArray.lean ====
/-
  From the last key tile of each batch to the whole output array. The grid's 32 points are walked batch by batch;
  the output window's block at point `t` is row `t / 4` of the [8, 2048, 128] array, whole on the other two axes,
  and it is written back at the points `t % 4 = 3` only. If at each such point the window's staging buffer holds
  row `batchOf t` of one array `G`, every write-back writes its block of `G`; the eight blocks of the points
  `4·b + 3` cover the array, so the array ends holding `G`.
-/
import proofs.«407200_j45148696215770_3_alg».proof.Proof.Gen.KernelIdeal.Value
import proofs.«407200_j45148696215770_3_alg».proof.Proof.GridIndex
import Idealize.ShloMosaic.Lib.Pipeline.Value
import Idealize.ShloMosaic.Lib.ValueIdx

set_option maxRecDepth 16384

noncomputable section

namespace Cert.KernelIdeal.Output

open Cert.KernelIdeal Cert.KernelIdeal.Gen Cert.KernelIdeal.Grid Idealize.ShloMosaic Idealize.ShloMosaic.TcCoe
open Idealize.ShloMosaic.ValueIdx Idealize.SL.Sem

variable {F : FTy → Type} [FloatOps F]
variable (m : (ℓ : Loc nD τ sig) → Buf (Elt F) ℓ)

/-- The output window's index map, decided once over the grid: point `t` works on block (t / 4, 0, 0). -/
theorem idx_facts : ∀ t : Fin cfg0.N, win0_6.index t (0 : Fin 3) = t.val / 4
    ∧ win0_6.index t (1 : Fin 3) = 0 ∧ win0_6.index t (2 : Fin 3) = 0 :=
  (by decide +kernel : ∀ t : Fin grid0.N, _)

/-- What a point `t` writes back is block `t` of `G`, when its staged block is row `batchOf t` of `G`. -/
theorem flushed_eq (c : Dev nD) (G : Vec F S8x2048x128 .f32) (t : Fin cfg0.N)
    (h : ∀ (i : Fin 2048) (d : Fin 128),
      (outsAt0 m c t.val t.isLt).1 (ix3 (0 : Fin 1) i d) = G (ix3 (batchOf t) i d)) :
    (dats m 0 c).flushed 6 t = ((cfg0.win 6).blk t).view.read (Elt F) G := by
  rw [Value.flushed6]
  funext y
  show (outsAt0 m c t.val t.isLt).1 (win0_6.xinj (grid0.coords t) y) = G (((cfg0.win 6).blk t).view.emb y)
  obtain ⟨e0, e1, e2⟩ := idx_facts t
  have hy0 : (y 0).val < 1 := (y 0).isLt
  have hy1 : (y 1).val < 2048 := (y 1).isLt
  have hy2 : (y 2).val < 128 := (y 2).isLt
  have hl : (win0_6.xinj (grid0.coords t) y : S1x2048x128.Idx) = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  have hr : (((cfg0.win 6).blk t).view.emb y : S8x2048x128.Idx) = ix3 (batchOf t) ⟨(y 1).val, hy1⟩ ⟨(y 2).val, hy2⟩ := by
    funext a; apply Fin.ext
    match a with
    | ⟨0, _⟩ => show win0_6.index t (0 : Fin 3) * 1 + 1 * (y 0).val = t.val / 4; omega
    | ⟨1, _⟩ => show win0_6.index t (1 : Fin 3) * 2048 + 1 * (y 1).val = (y 1).val; omega
    | ⟨2, _⟩ => show win0_6.index t (2 : Fin 3) * 128 + 1 * (y 2).val = (y 2).val; omega
  exact (congrArg _ hl).trans ((h _ _).trans (congrArg G hr.symm))

/-- An index of the array is in point `t`'s block iff each coordinate is in the block's range on its axis. -/
theorem mem_blk (t : Fin cfg0.N) (i : S8x2048x128.Idx) :
    i ∈ ((cfg0.win 6).blk t).view.set ↔ ∀ a : Fin 3, win0_6.index t a * S1x2048x128.size a ≤ (i a).val
      ∧ (i a).val < win0_6.index t a * S1x2048x128.size a + S1x2048x128.size a := by
  show i ∈ ((View.whole main_v1).slice (win0_6.rect t)).set ↔ _
  rw [View.set_slice_whole, Rect.mem_set_unit]
  exact Iff.rfl

/-- Every index of the array lies in the block of a point that writes back: row `b` in that of point `4·b + 3`. -/
theorem cover (i : S8x2048x128.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 128 := (i 2).isLt
  have hlt : 4 * (i 0).val + 3 < cfg0.N := lt_of_lt_of_eq (by omega) N_eq.symm
  obtain ⟨e0, e1, e2⟩ := idx_facts ⟨4 * (i 0).val + 3, hlt⟩
  have e0' : win0_6.index ⟨4 * (i 0).val + 3, hlt⟩ (0 : Fin 3) = (4 * (i 0).val + 3) / 4 := e0
  refine ⟨⟨4 * (i 0).val + 3, hlt⟩, (flush0_6 _).mpr (show (4 * (i 0).val + 3) % 4 = 3 by omega), ?_⟩
  rw [mem_blk]
  intro a
  match a with
  | ⟨0, _⟩ =>
    show win0_6.index ⟨4 * (i 0).val + 3, hlt⟩ (0 : Fin 3) * 1 ≤ (i 0).val
      ∧ (i 0).val < win0_6.index ⟨4 * (i 0).val + 3, hlt⟩ (0 : Fin 3) * 1 + 1
    omega
  | ⟨1, _⟩ =>
    show win0_6.index ⟨4 * (i 0).val + 3, hlt⟩ (1 : Fin 3) * 2048 ≤ (i 1).val
      ∧ (i 1).val < win0_6.index ⟨4 * (i 0).val + 3, hlt⟩ (1 : Fin 3) * 2048 + 2048
    omega
  | ⟨2, _⟩ =>
    show win0_6.index ⟨4 * (i 0).val + 3, hlt⟩ (2 : Fin 3) * 128 ≤ (i 2).val
      ∧ (i 2).val < win0_6.index ⟨4 * (i 0).val + 3, hlt⟩ (2 : Fin 3) * 128 + 128
    omega

/-- THE OUTPUT ARRAY after the run is `G`, when the last key tile of every batch leaves row `batchOf t` of `G`
    in the output window's staging buffer. -/
theorem arrAt_of_last_tiles (c : Dev nD) (G : Vec F S8x2048x128 .f32)
    (h : ∀ t : Fin cfg0.N, t.val % 4 = 3 → ∀ (i : Fin 2048) (d : Fin 128),
      (outsAt0 m c t.val t.isLt).1 (ix3 (0 : Fin 1) i d) = G (ix3 (batchOf t) i d)) :
    (dats m 0 c).arrAt 6 cfg0.N = G :=
  (dats m 0 c).arrAt_eq_of_cover 6 G (fun t hf => flushed_eq m c G t (h t ((flush0_6 t).mp hf))) cover

end Cert.KernelIdeal.Output

end
-- ==== Proof.KernelValue.lean ====
/-
  The kernel's output array is the specification's attention result.

  The output window is written back only at the last key tile of each batch, and there its block is the attention
  result of that batch (Invariant.lean's `out_row`); the eight blocks tile the output array (OutputArray.lean). The
  real witnesses of the scores and values come from the inputs being real.
-/
import proofs.«407200_j45148696215770_3_alg».proof.Proof.Invariant
import proofs.«407200_j45148696215770_3_alg».proof.Proof.OutputArray

set_option maxRecDepth 16384

noncomputable section

namespace Cert.KernelIdeal.KValue

open Cert.KernelIdeal Cert.KernelIdeal.Gen Cert.KernelIdeal.Grid Cert.KernelIdeal.Inv Cert.KernelIdeal.Output
open Cert.Attn Idealize.ShloMosaic Idealize.ShloMosaic.TcCoe Idealize.ShloMosaic.ValueIdx Idealize.SL.Sem

variable (m : (ℓ : Loc nD τ sig) → Buf (Elt Ideal) ℓ) (c : Dev nD)

/-- After the run, the output array is `attn` of the six argument arrays, given real witnesses of scores and values. -/
theorem array_of_witnesses (σ : Fin 8 → Fin 2048 → Fin 2048 → ℝ) (w : Fin 8 → Fin 2048 → Fin 128 → ℝ)
    (hσ : ∀ b i j, score (Qa m c) (Ka m c) (Ma m c) (Wqa m c) (Wka m c) b i j = (σ b i j : EReal))
    (hw : ∀ b j d, Va m c (ix3 b j d) = (w b j d : EReal)) :
    (dats m 0 c).arrAt 6 cfg0.N = attn (Qa m c) (Ka m c) (Va m c) (Ma m c) (Wqa m c) (Wka m c) :=
  arrAt_of_last_tiles m c (attn (Qa m c) (Ka m c) (Va m c) (Ma m c) (Wqa m c) (Wka m c))
    (fun t h1 i d => (out_row m c σ w hσ hw t h1 i d).trans
      (attn_apply (Qa m c) (Ka m c) (Va m c) (Ma m c) (Wqa m c) (Wka m c) (batchOf t) i d).symm)

/-- … and the witnesses exist as soon as every input entry is real. -/
theorem array_of_real
    (hQ : ∀ i, ∃ r : ℝ, Qa m c i = (r : EReal)) (hK : ∀ i, ∃ r : ℝ, Ka m c i = (r : EReal))
    (hV : ∀ i, ∃ r : ℝ, Va m c i = (r : EReal)) (hM : ∀ i, ∃ r : ℝ, Ma m c i = (r : EReal))
    (hWq : ∀ i, ∃ r : ℝ, Wqa m c i = (r : EReal)) (hWk : ∀ i, ∃ r : ℝ, Wka m c i = (r : EReal)) :
    (dats m 0 c).arrAt 6 cfg0.N = attn (Qa m c) (Ka m c) (Va m c) (Ma m c) (Wqa m c) (Wka m c) := by
  choose σ hσ using score_real (Qa m c) (Ka m c) (Ma m c) (Wqa m c) (Wka m c) hQ hK hM hWq hWk
  choose v hv using hV
  exact array_of_witnesses m c σ (fun b j d => v (ix3 b j d)) hσ (fun b j d => hv (ix3 b j d))

end Cert.KernelIdeal.KValue

end
-- ==== Proof.ReferenceValue.lean ====
/-
  The reference program's result, read at an index, is the specification's formula.

  Each stage of the reference is read at coordinates: the two projections as sums over the 128 input features, the
  scores as the masked inner product plus the fill, the row's shift as the maximum folded from -∞ (and once more
  against -∞), each weight as the exponential of the shifted score over the row's normaliser, and the result as the
  sum over the keys of weight times value. Chained, they give `attnAt` at (b, i, d).
-/
import proofs.«407200_j45148696215770_3_alg».proof.Proof.Gen.ReferenceIdeal.Read
import proofs.«407200_j45148696215770_3_alg».proof.Proof.AttentionSpec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Read Idealize.ShloMosaic Idealize.ShloMosaic.ValueIdx

/-- The six argument arrays' types. -/
abbrev A3 := (⟨S8x2048x128, .f32⟩ : BufTy).Contents (Elt Ideal)
abbrev A2 := (⟨S8x2048, .f32⟩ : BufTy).Contents (Elt Ideal)
abbrev AW := (⟨S128x128, .f32⟩ : BufTy).Contents (Elt Ideal)

/-! ## The composed index functions at coordinates -/

theorem lidx_v0 (b : Fin 8) (i : Fin 2048) (h k : Fin 128) : lidx_main_v0 (ix3 b i h) k = ix3 b i k :=
  funext fun a => Fin.ext (by match a with | ⟨0, _⟩ => rfl | ⟨1, _⟩ => rfl | ⟨2, _⟩ => rfl)
theorem ridx_v0 (b : Fin 8) (i : Fin 2048) (h k : Fin 128) : ridx_main_v0 (ix3 b i h) k = ix2 k h :=
  funext fun a => Fin.ext (by match a with | ⟨0, _⟩ => rfl | ⟨1, _⟩ => rfl)
theorem lidx_v1 (b : Fin 8) (i : Fin 2048) (h k : Fin 128) : lidx_main_v1 (ix3 b i h) k = ix3 b i k :=
  funext fun a => Fin.ext (by match a with | ⟨0, _⟩ => rfl | ⟨1, _⟩ => rfl | ⟨2, _⟩ => rfl)
theorem ridx_v1 (b : Fin 8) (i : Fin 2048) (h k : Fin 128) : ridx_main_v1 (ix3 b i h) k = ix2 k h :=
  funext fun a => Fin.ext (by match a with | ⟨0, _⟩ => rfl | ⟨1, _⟩ => rfl)
theorem lidx_v2 (b : Fin 8) (i j : Fin 2048) (k : Fin 128) : lidx_main_v2 (ix3 b i j) k = ix3 b i k :=
  funext fun a => Fin.ext (by match a with | ⟨0, _⟩ => rfl | ⟨1, _⟩ => rfl | ⟨2, _⟩ => rfl)
theorem ridx_v2 (b : Fin 8) (i j : Fin 2048) (k : Fin 128) : ridx_main_v2 (ix3 b i j) k = ix3 b j k :=
  funext fun a => Fin.ext (by match a with | ⟨0, _⟩ => rfl | ⟨1, _⟩ => rfl | ⟨2, _⟩ => rfl)
theorem idx_v3_v4 (b : Fin 8) (i j : Fin 2048) : idx_main_v3 (idx_main_v4 (ix3 b i j)) = ix2 b j :=
  funext fun a => Fin.ext (by match a with | ⟨0, _⟩ => rfl | ⟨1, _⟩ => rfl)
theorem idx_v3_v10 (b : Fin 8) (i j : Fin 2048) : idx_main_v3 (idx_main_v10 (ix3 b i j)) = ix2 b j :=
  funext fun a => Fin.ext (by match a with | ⟨0, _⟩ => rfl | ⟨1, _⟩ => rfl)
theorem idx_v15_v16 (b : Fin 8) (i j : Fin 2048) : idx_main_v15 (idx_main_v16 (ix3 b i j)) = ix2 b i :=
  funext fun a => Fin.ext (by match a with | ⟨0, _⟩ => rfl | ⟨1, _⟩ => rfl)
theorem idx_v20_v21 (b : Fin 8) (i j : Fin 2048) : idx_main_v20 (idx_main_v21 (ix3 b i j)) = ix2 b i :=
  funext fun a => Fin.ext (by match a with | ⟨0, _⟩ => rfl | ⟨1, _⟩ => rfl)
theorem idx_v19 (b : Fin 8) (i k : Fin 2048) : idx_main_v19 (ix2 b i) k = ix3 b i k :=
  funext fun a => Fin.ext (by match a with | ⟨0, _⟩ => rfl | ⟨1, _⟩ => rfl | ⟨2, _⟩ => rfl)
theorem lidx_v23 (b : Fin 8) (i : Fin 2048) (d : Fin 128) (k : Fin 2048) : lidx_main_v23 (ix3 b i d) k = ix3 b i k :=
  funext fun a => Fin.ext (by match a with | ⟨0, _⟩ => rfl | ⟨1, _⟩ => rfl | ⟨2, _⟩ => rfl)
theorem ridx_v23 (b : Fin 8) (i : Fin 2048) (d : Fin 128) (k : Fin 2048) : ridx_main_v23 (ix3 b i d) k = ix3 b k d :=
  funext fun a => Fin.ext (by match a with | ⟨0, _⟩ => rfl | ⟨1, _⟩ => rfl | ⟨2, _⟩ => rfl)

/-! ## The projections and the scores -/

/-- The projected query row. -/
theorem projQ_at (x0 : A3) (x4 : AW) (b : Fin 8) (i : Fin 2048) (h : Fin 128) :
    val_main_v0 (F := Ideal) x0 x4 (ix3 b i h) = Cert.Attn.proj x0 x4 b i h := by
  rw [val_main_v0_apply]
  unfold Cert.Attn.proj
  refine Finset.sum_congr rfl fun k _ => ?_
  rw [lidx_v0, ridx_v0]

/-- The projected key row. -/
theorem projK_at (x1 : A3) (x5 : AW) (b : Fin 8) (j : Fin 2048) (h : Fin 128) :
    val_main_v1 (F := Ideal) x1 x5 (ix3 b j h) = Cert.Attn.proj x1 x5 b j h := by
  rw [val_main_v1_apply]
  unfold Cert.Attn.proj
  refine Finset.sum_congr rfl fun k _ => ?_
  rw [lidx_v1, ridx_v1]

/-- The inner product of a projected query row with a projected key row. -/
theorem dots_at (x0 x1 : A3) (x4 x5 : AW) (b : Fin 8) (i j : Fin 2048) :
    val_main_v2 (F := Ideal) x0 x1 x4 x5 (ix3 b i j)
      = ∑ h : Fin 128, Cert.Attn.proj x0 x4 b i h * Cert.Attn.proj x1 x5 b j h := by
  rw [val_main_v2_apply]
  refine Finset.sum_congr rfl fun k _ => ?_
  rw [lidx_v2, ridx_v2, projQ_at, projK_at]

/-- The masked score. -/
theorem score_at (x0 x1 : A3) (x3 : A2) (x4 x5 : AW) (b : Fin 8) (i j : Fin 2048) :
    val_main_v11 (F := Ideal) x0 x1 x3 x4 x5 (ix3 b i j) = Cert.Attn.score x0 x1 x3 x4 x5 b i j := by
  rw [val_main_v11_apply, val_main_v5_apply, val_main_v4_apply, val_main_v3_apply, idx_v3_v4, dots_at,
    val_main_v10_apply, val_main_v9_apply, val_main_v7_apply, val_main_v6_apply, val_main_cst_apply,
    val_main_v3_apply, idx_v3_v10, val_main_v8_apply, val_main_cst_0_apply]
  simp only [Ideal.addf_def, Ideal.mulf_def, Ideal.subf_def, Ideal.ofBits_def]
  rfl

/-! ## The row's shift -/

/-- The reduced shape's facts at the literal shapes. -/
theorem red_d2 : S8x2048x2048.Reduces [2] S8x2048 := by decide

/-- A result index of the row reduction with the key coordinate inserted. -/
theorem lift_d2 (b : Fin 8) (i j : Fin 2048) : red_d2.lift (ix2 b i) j = ix3 b i j :=
  funext fun a => Fin.ext (by match a with | ⟨0, _⟩ => rfl | ⟨1, _⟩ => rfl | ⟨2, _⟩ => rfl)

/-- The row's maximum folded from -∞. -/
theorem fold_at (x0 x1 : A3) (x3 : A2) (x4 x5 : AW) (b : Fin 8) (i : Fin 2048) :
    val_main_v12 (F := Ideal) x0 x1 x3 x4 x5 (ix2 b i)
      = (Finset.univ : Finset (Fin 2048)).fold max (Ideal.ofBits .f32 0xFF800000#32)
          (fun j => Cert.Attn.score x0 x1 x3 x4 x5 b i j) := by
  unfold val_main_v12
  rw [Host.reduce_eq_fold_single FloatOps.maximumf _ _ Facts₀.reducesTo_S8x2048x2048_S8x2048_d2 red_d2 Facts₀.h_S_]
  rw [val_main_cst_1_apply, Ideal.ofBits_def]
  have e : (val_main_v11 (F := Ideal) x0 x1 x3 x4 x5 ∘ red_d2.lift (ix2 b i))
      = fun j : Fin 2048 => Cert.Attn.score x0 x1 x3 x4 x5 b i j := by
    funext j
    exact (congrArg (val_main_v11 (F := Ideal) x0 x1 x3 x4 x5) (lift_d2 b i j)).trans (score_at x0 x1 x3 x4 x5 b i j)
  rw [e]
  rfl

/-- The shift subtracted from the row. -/
theorem rowMax_at (x0 x1 : A3) (x3 : A2) (x4 x5 : AW) (b : Fin 8) (i : Fin 2048) :
    val_main_v14 (F := Ideal) x0 x1 x3 x4 x5 (ix2 b i)
      = Cert.Attn.rowMax (fun j => Cert.Attn.score x0 x1 x3 x4 x5 b i j) := by
  rw [val_main_v14_apply, val_main_v13_apply, val_main_cst_2_apply, fold_at]
  rfl

/-! ## The weights and the result -/

/-- The exponential of the shifted score. -/
theorem expo_at (x0 x1 : A3) (x3 : A2) (x4 x5 : AW) (b : Fin 8) (i j : Fin 2048) :
    val_main_v18 (F := Ideal) x0 x1 x3 x4 x5 (ix3 b i j)
      = Ideal.exp (Cert.Attn.score x0 x1 x3 x4 x5 b i j
          - Cert.Attn.rowMax (fun j' => Cert.Attn.score x0 x1 x3 x4 x5 b i j')) := by
  rw [val_main_v18_apply, val_main_v17_apply, score_at, val_main_v16_apply, val_main_v15_apply, idx_v15_v16,
    rowMax_at]
  rfl

/-- The row's normaliser: zero plus the sum of the row's exponentials. -/
theorem norm_at (x0 x1 : A3) (x3 : A2) (x4 x5 : AW) (b : Fin 8) (i j : Fin 2048) :
    val_main_v21 (F := Ideal) x0 x1 x3 x4 x5 (ix3 b i j)
      = Ideal.ofBits .f32 0x00000000#32
        + ∑ j' : Fin 2048, Ideal.exp (Cert.Attn.score x0 x1 x3 x4 x5 b i j'
            - Cert.Attn.rowMax (fun j'' => Cert.Attn.score x0 x1 x3 x4 x5 b i j'')) := by
  rw [val_main_v21_apply, val_main_v20_apply, idx_v20_v21, val_main_v19_apply, val_main_cst_3_apply,
    Ideal.ofBits_def]
  refine congrArg (_ + ·) (Finset.sum_congr rfl fun k _ => ?_)
  rw [idx_v19, expo_at]

/-- A normalised weight. -/
theorem weight_at (x0 x1 : A3) (x3 : A2) (x4 x5 : AW) (b : Fin 8) (i j : Fin 2048) :
    val_main_v22 (F := Ideal) x0 x1 x3 x4 x5 (ix3 b i j)
      = Ideal.div (Ideal.exp (Cert.Attn.score x0 x1 x3 x4 x5 b i j
            - Cert.Attn.rowMax (fun j' => Cert.Attn.score x0 x1 x3 x4 x5 b i j')))
          (Ideal.ofBits .f32 0x00000000#32
            + ∑ j' : Fin 2048, Ideal.exp (Cert.Attn.score x0 x1 x3 x4 x5 b i j'
                - Cert.Attn.rowMax (fun j'' => Cert.Attn.score x0 x1 x3 x4 x5 b i j''))) := by
  rw [val_main_v22_apply, expo_at, norm_at]
  rfl

/-- THE REFERENCE AT AN INDEX: the specification's formula. -/
theorem ref_apply (x0 x1 x2 : (⟨S8x2048x128, .f32⟩ : BufTy).Contents (Elt Ideal)) (x3 : (⟨S8x2048, .f32⟩ : BufTy).Contents (Elt Ideal))
    (x4 x5 : (⟨S128x128, .f32⟩ : BufTy).Contents (Elt Ideal)) (b : Fin 8) (i : Fin 2048) (d : Fin 128) :
    val_main_v23 x0 x1 x2 x3 x4 x5 (ix3 b i d) = Cert.Attn.attnAt x0 x1 x2 x3 x4 x5 b i d := by
  rw [val_main_v23_apply]
  unfold Cert.Attn.attnAt Cert.Attn.softmaxRow
  refine Finset.sum_congr rfl fun j _ => ?_
  rw [lidx_v23, ridx_v23, weight_at]

end Cert.ReferenceIdeal.RefValue

end
-- ==== Proof.FiniteInputs.lean ====
import proofs.«407200_j45148696215770_3_alg».proof.Pre_finite_inputs
import proofs.«407200_j45148696215770_3_alg».proof.Proof.Gen.Pre_finite_inputs
import Idealize.ShloMosaic.Lib.ReduceAll
import Idealize.ShloMosaic.Lib.ValueIdx
import Idealize.ShloMosaic.PureOps.Ideal

/-!
  The precondition "every float input is finite", read back at the extended reals.

  The printed predicate compares, entry by entry, the absolute value of each of the six input arrays with +∞, takes the
  conjunction of every comparison of an array, and joins the six conjunctions. Where the predicate holds, every entry
  `x` of every array has `max x (-x) < ⊤`; an extended real with that property is neither `⊤` nor `⊥`, so it is
  a real number. The theorem `real_of_finite` gives those real witnesses.
-/

namespace Cert.FiniteInputs

open Idealize.ShloMosaic

/-- The shape of rank 0 has one index. -/
instance subsingleton_scalar_idx : Subsingleton Cert.Pre_finite_inputs.S_.Idx :=
  ⟨fun _ _ => funext fun d => d.elim0⟩

/-- The binary32 pattern `0x7F800000` is `+∞`. -/
theorem ofBits_inf : Ideal.ofBits .f32 0x7F800000#32 = (⊤ : EReal) := by
  simp [Ideal.ofBits, Ideal.ieee]

/-- An extended real whose absolute value `max x (-x)` compares below `+∞` is a real number:
    at `⊤` the maximum is `⊤`, at `⊥` it is `-⊥ = ⊤`, and `⊤ < ⊤` fails. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: where the conjunction over all entries of `|x| < +∞` is 1, every entry is a real number. -/
theorem real_of_all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- Where the printed precondition holds, every entry of each of the six input arrays is a real number. -/
theorem real_of_finite
    (a0 a1 a2 : FVec Ideal Cert.Pre_finite_inputs.S8x2048x128 .f32) (a3 : FVec Ideal Cert.Pre_finite_inputs.S8x2048 .f32)
    (a4 a5 : FVec Ideal Cert.Pre_finite_inputs.S128x128 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all_lt_inf a0 _ _ _ h0', real_of_all_lt_inf a1 _ _ _ h1, real_of_all_lt_inf a2 _ _ _ h2,
    real_of_all_lt_inf a3 _ _ _ h3, real_of_all_lt_inf a4 _ _ _ h4, real_of_all_lt_inf a5 _ _ _ h5⟩

end Cert.FiniteInputs
-- ==== Proof.lean ====
/-
  A fused attention kernel against plain attention, over the extended reals.

  The reference computes, for six finite argument arrays, q = Q·Wq, k = K·Wk, the masked scores
  s = mask · (q kᵀ) + (1 - mask) · c, the softmax of every score row, and that softmax applied to the values. The
  kernel computes the same per batch without ever holding a score row: it walks the keys in four tiles of 512,
  keeping per query row a running maximum m, a normaliser l and a weighted sum acc, rescaling the old l and acc by
  exp (m_old - m_new) at every tile, and divides acc by l after the last tile (the online softmax).

  Why the two agree (Proof/OnlineSoftmax.lean): after the keys J have been seen the row's state is, for SOME real μ,
  m = μ, l = ∑_{j∈J} exp (s j - μ), acc d = ∑_{j∈J} exp (s j - μ) · v j d, and the quotient acc d / l does not depend
  on μ, since exp (s j - μ) = exp (M - μ) · exp (s j - M); so it equals the reference's ∑_j (exp (s j - M) / ∑ exp (s j' - M)) · v j d
  at the reference's own shift M. Distributing the division over the sum, and the rescaling identity, need every
  score and value to be a real number: this is where the precondition (every input finite) is used. The rest is
  reading both programs at an index: the reference operation by operation (Proof/ReferenceValue.lean), the kernel's
  body as pure terms of its loaded blocks (Proof/KernelPieces.lean, Proof/PayloadsAt.lean), its carried state by
  induction over the 32 grid points (Proof/Transitions.lean, Proof/RowUpdate.lean, Proof/Invariant.lean), its blocks
  as rows of the arrays (Proof/BlockReads.lean, Proof/OutputArray.lean). The three frames are the generated ones, and
  the idealized kernel is the kernel's own text read at the exact instance (no rewrite to preserve).
-/
import proofs.«407200_j45148696215770_3_alg».proof.Defs
import proofs.«407200_j45148696215770_3_alg».proof.Proof.Gen.Kernel
import proofs.«407200_j45148696215770_3_alg».proof.Proof.Gen.Kernel.Frame
import proofs.«407200_j45148696215770_3_alg».proof.Proof.Gen.KernelIdeal
import proofs.«407200_j45148696215770_3_alg».proof.Proof.Gen.KernelIdeal.Frame
import proofs.«407200_j45148696215770_3_alg».proof.Proof.Gen.KernelIdeal.Value
import proofs.«407200_j45148696215770_3_alg».proof.Proof.Gen.ReferenceIdeal
import proofs.«407200_j45148696215770_3_alg».proof.Proof.Gen.ReferenceIdeal.Run
import proofs.«407200_j45148696215770_3_alg».proof.Proof.Gen.ReferenceIdeal.Read
import proofs.«407200_j45148696215770_3_alg».proof.Proof.Gen.Pre_finite_inputs
import proofs.«407200_j45148696215770_3_alg».proof.Proof.KernelValue
import proofs.«407200_j45148696215770_3_alg».proof.Proof.ReferenceValue
import proofs.«407200_j45148696215770_3_alg».proof.Proof.FiniteInputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the attention result of the (agreeing) argument arrays. -/
theorem algebraic : Cert.algebraic_KernelIdeal_ReferenceIdeal := by
  intro m ρ m' ρ' hpre hagree
  refine ⟨fun c => Cert.Attn.attn (Cert.KernelIdeal.Inv.Qa m c) (Cert.KernelIdeal.Inv.Ka m c) (Cert.KernelIdeal.Inv.Va m c)
    (Cert.KernelIdeal.Inv.Ma m c) (Cert.KernelIdeal.Inv.Wqa m c) (Cert.KernelIdeal.Inv.Wka m c), ?_, ?_⟩
  · refine (θ_run Cert.KernelIdeal.defs _ _).mono (fun r h c => ⟨(h c).1.trans ?_, (h c).2⟩)
      (Cert.KernelIdeal.Value.run_blocks m ρ)
    obtain ⟨hQ, hK, hV, hM, hWq, hWk⟩ := Cert.FiniteInputs.real_of_finite _ _ _ _ _ _ (hpre c)
    exact Cert.KernelIdeal.KValue.array_of_real m c hQ hK hV hM hWq hWk
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq, (hagree c).1, (hagree c).2.1, (hagree c).2.2.1,
      (hagree c).2.2.2.1, (hagree c).2.2.2.2.1, (hagree c).2.2.2.2.2]
    funext idx
    obtain ⟨b, i, d, rfl⟩ : ∃ (b : Fin 8) (i : Fin 2048) (d : Fin 128), idx = ix3 b i d := ⟨idx 0, idx 1, idx 2, eq_ix3 idx⟩
    rw [Cert.ReferenceIdeal.RefValue.ref_apply]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
